-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x8 : Shape := ⟨2, ![1000000, 8]⟩
abbrev S2x4000000 : Shape := ⟨2, ![2, 4000000]⟩
abbrev S4000000 : Shape := ⟨1, ![4000000]⟩
abbrev S1000000x32 : Shape := ⟨2, ![1000000, 32]⟩
abbrev S8x32 : Shape := ⟨2, ![8, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S1000000x32 : S_.BroadcastsInDim S1000000x32 (![] : Fin 0 → Fin S1000000x32.rank)
  reducesTo_S1000000x32_S_d0_1 : S1000000x32.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x9 : S_.BroadcastsInDim S32x9 (![] : Fin 0 → Fin S32x9.rank)
  reducesTo_S32x9_S_d0_1 : S32x9.ReducesTo [0, 1] S_
  bcast_S_S9 : S_.BroadcastsInDim S9 (![] : Fin 0 → Fin S9.rank)
  reducesTo_S9_S_d0 : S9.ReducesTo [0] S_

variable [Facts]

def fn_part8 {F : FTy → Type} [FloatOps F] (main_arg29 : FVec F S9 .f32) (main_v133 : IVec S_ 1) (main_v136 : IVec S32x9 1) : IVec S_ 1 :=
  let main_c_53 : IVec S_ 1 := constantI S_ 1 1#1
  let main_v137 : IVec S_ 1 := (fun x v => Host.reduce IntOp.andi x v reducesTo_S32x9_S_d0_1 h_S_) main_v136 main_c_53
  let main_v138 : IVec S_ 1 := andi main_v133 main_v137
  let main_v139 : FVec F S9 .f32 := Host.absf main_arg29
  let main_cst_54 : FVec F S_ .f32 := constant S_ .f32 0x7F800000#32
  let main_v140 : FVec F S9 .f32 := broadcastInDim S9 ![] bcast_S_S9 main_cst_54
  let main_v141 : IVec S9 1 := cmpf .olt main_v139 main_v140
  let main_c_55 : IVec S_ 1 := constantI S_ 1 1#1
  let main_v142 : IVec S_ 1 := (fun x v => Host.reduce IntOp.andi x v reducesTo_S9_S_d0 h_S_) main_v141 main_c_55
  let main_v143 : IVec S_ 1 := andi main_v138 main_v142
  main_v143

def fn_part7 {F : FTy → Type} [FloatOps F] (main_arg26 : FVec F S32 .f32) (main_arg27 : FVec F S32 .f32) (main_arg28 : FVec F S32x9 .f32) (main_arg29 : FVec F S9 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32 .f32 := Host.absf main_arg26
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S32 .f32 := Host.absf main_arg27
  let main_cst_50 : FVec F S_ .f32 := constant S_ .f32 0x7F800000#32
  let main_v130 : FVec F S32 .f32 := broadcastInDim S32 ![] bcast_S_S32 main_cst_50
  let main_v131 : IVec S32 1 := cmpf .olt main_v129 main_v130
  let main_c_51 : IVec S_ 1 := constantI S_ 1 1#1
  let main_v132 : IVec S_ 1 := (fun x v => Host.reduce IntOp.andi x v reducesTo_S32_S_d0 h_S_) main_v131 main_c_51
  let main_v133 : IVec S_ 1 := andi main_v128 main_v132
  let main_v134 : FVec F S32x9 .f32 := Host.absf main_arg28
  let main_cst_52 : FVec F S_ .f32 := constant S_ .f32 0x7F800000#32
  let main_v135 : FVec F S32x9 .f32 := broadcastInDim S32x9 ![] bcast_S_S32x9 main_cst_52
  let main_v136 : IVec S32x9 1 := cmpf .olt main_v134 main_v135
  fn_part8 (F := F) main_arg29 main_v133 main_v136

def fn_part6 {F : FTy → Type} [FloatOps F] (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S8x32 .f32 := Host.absf main_arg22
  let main_cst_40 : FVec F S_ .f32 := constant S_ .f32 0x7F800000#32
  let main_v105 : FVec F S8x32 .f32 := broadcastInDim S8x32 ![] bcast_S_S8x32 main_cst_40
  let main_v106 : IVec S8x32 1 := cmpf .olt main_v104 main_v105
  let main_c_41 : IVec S_ 1 := constantI S_ 1 1#1
  let main_v107 : IVec S_ 1 := (fun x v => Host.reduce IntOp.andi x v reducesTo_S8x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x32 .f32 := Host.absf main_arg24
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg25
  fn_part7 (F := F) main_arg26 main_arg27 main_arg28 main_arg29 main_v118 main_v119

def fn_part5 {F : FTy → Type} [FloatOps F] (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x32 .f32 := Host.absf main_arg19
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S8x32 .f32 := Host.absf main_arg17
  let main_cst_30 : FVec F S_ .f32 := constant S_ .f32 0x7F800000#32
  let main_v80 : FVec F S8x32 .f32 := broadcastInDim S8x32 ![] bcast_S_S8x32 main_cst_30
  let main_v81 : IVec S8x32 1 := cmpf .olt main_v79 main_v80
  let main_c_31 : IVec S_ 1 := constantI S_ 1 1#1
  let main_v82 : IVec S_ 1 := (fun x v => Host.reduce IntOp.andi x v reducesTo_S8x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v48 : IVec S_ 1) (main_v49 : FVec F S8x32 .f32) (main_v50 : FVec F S8x32 .f32) : IVec S_ 1 :=
  let main_v51 : IVec S8x32 1 := cmpf .olt main_v49 main_v50
  let main_c_19 : IVec S_ 1 := constantI S_ 1 1#1
  let main_v52 : IVec S_ 1 := (fun x v => Host.reduce IntOp.andi x v reducesTo_S8x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S32 .f32) (main_arg9 : FVec F S32 .f32) (main_arg10 : FVec F S32 .f32) (main_arg11 : FVec F S8x32 .f32) (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S8x32 .f32 := Host.absf main_arg11
  let main_cst_18 : FVec F S_ .f32 := constant S_ .f32 0x7F800000#32
  let main_v50 : FVec F S8x32 .f32 := broadcastInDim S8x32 ![] bcast_S_S8x32 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S8x32 .f32) (main_arg6 : FVec F S32 .f32) (main_arg7 : FVec F S32x32 .f32) (main_arg8 : FVec F S32 .f32) (main_arg9 : FVec F S32 .f32) (main_arg10 : FVec F S32 .f32) (main_arg11 : FVec F S8x32 .f32) (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S8x32 .f32 := Host.absf main_arg5
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S1000000x8 .f32) (main_arg1 : IVec S2x4000000 32) (main_arg2 : FVec F S4000000 .f32) (main_arg3 : FVec F S1000000x32 .f32) (main_arg4 : FVec F S1000000x32 .f32) (main_arg5 : FVec F S8x32 .f32) (main_arg6 : FVec F S32 .f32) (main_arg7 : FVec F S32x32 .f32) (main_arg8 : FVec F S32 .f32) (main_arg9 : FVec F S32 .f32) (main_arg10 : FVec F S32 .f32) (main_arg11 : FVec F S8x32 .f32) (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) : IVec S_ 1 :=
  let main_v0 : FVec F S1000000x8 .f32 := Host.absf main_arg0
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S1000000x32 .f32 := Host.absf main_arg3
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000000x32 .f32 := Host.absf main_arg4
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S1000000x8 : Shape := ⟨2, ![1000000, 8]⟩
abbrev S2x4000000 : Shape := ⟨2, ![2, 4000000]⟩
abbrev S4000000 : Shape := ⟨1, ![4000000]⟩
abbrev S1000000x32 : Shape := ⟨2, ![1000000, 32]⟩
abbrev S8x32 : Shape := ⟨2, ![8, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S8x128 : Shape := ⟨2, ![8, 128]⟩
abbrev S32x128 : Shape := ⟨2, ![32, 128]⟩
abbrev S128 : Shape := ⟨1, ![128]⟩
abbrev S1000000x9 : Shape := ⟨2, ![1000000, 9]⟩
abbrev S2000x8 : Shape := ⟨2, ![2000, 8]⟩
abbrev S2000x32 : Shape := ⟨2, ![2000, 32]⟩
abbrev S2000x9 : Shape := ⟨2, ![2000, 9]⟩
abbrev S2000x128 : Shape := ⟨2, ![2000, 128]⟩
abbrev S1x128 : Shape := ⟨2, ![1, 128]⟩
abbrev S1x32 : Shape := ⟨2, ![1, 32]⟩
abbrev S1x9 : Shape := ⟨2, ![1, 9]⟩

abbrev nBuf : Space → Nat
  | .hbm => 44
  | .vmem => 20
  | .smem => 0
  | _ => 0

abbrev bufTy : (tb : Table) → Fin (tcTables nBuf tb) → BufTy
  | .hbm, ⟨0, _⟩ => ⟨S1000000x8, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S8x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S8x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S8x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32, .f32⟩
  | .hbm, ⟨22, _⟩ => ⟨S8x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32x9, .f32⟩
  | .hbm, ⟨29, _⟩ => ⟨S9, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S8x128, .f32⟩
  | .hbm, ⟨39, _⟩ => ⟨S32x128, .f32⟩
  | .hbm, ⟨40, _⟩ => ⟨S128, .f32⟩
  | .hbm, ⟨41, _⟩ => ⟨S1000000x9, .f32⟩
  | .hbm, ⟨42, _⟩ => ⟨S1000000x32, .f32⟩
  | .hbm, ⟨43, _⟩ => ⟨S1000000x32, .f32⟩
  | .local _ .vmem, ⟨0, _⟩ => ⟨S2000x8, .f32⟩
  | .local _ .vmem, ⟨1, _⟩ => ⟨S2000x8, .f32⟩
  | .local _ .vmem, ⟨2, _⟩ => ⟨S2000x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S8x128, .f32⟩
  | .local _ .vmem, ⟨7, _⟩ => ⟨S32x128, .f32⟩
  | .local _ .vmem, ⟨8, _⟩ => ⟨S128, .f32⟩
  | .local _ .vmem, ⟨9, _⟩ => ⟨S32, .f32⟩
  | .local _ .vmem, ⟨10, _⟩ => ⟨S32, .f32⟩
  | .local _ .vmem, ⟨11, _⟩ => ⟨S32, .f32⟩
  | .local _ .vmem, ⟨12, _⟩ => ⟨S32x9, .f32⟩
  | .local _ .vmem, ⟨13, _⟩ => ⟨S9, .f32⟩
  | .local _ .vmem, ⟨14, _⟩ => ⟨S2000x9, .f32⟩
  | .local _ .vmem, ⟨15, _⟩ => ⟨S2000x9, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | _, _ => ⟨S1000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11_0 : Ref sig .tc := ⟨.hbm, 41, rfl⟩
abbrev main_v11_1 : Ref sig .tc := ⟨.hbm, 42, rfl⟩
abbrev main_v11_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x9 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S8x32_S8x32_S8x32_S8x32_S8x128_d1 : Shape.Concatenates [S8x32, S8x32, S8x32, S8x32] S8x128 1
  concatenates_S32x32_S32x32_S32x32_S32x32_S32x128_d1 : Shape.Concatenates [S32x32, S32x32, S32x32, S32x32] S32x128 1
  concatenates_S32_S32_S32_S32_S128_d0 : Shape.Concatenates [S32, S32, S32, S32] S128 0
  inb_S2000x8_S2000x8_0_0 : ∀ a, (![0, 0] : Fin 2 → Nat) a + S2000x8.size a ≤ S2000x8.size a
  h_S2000x8 : 0 < S2000x8.numel
  bitsLt_bf16_f32 : FTy.bits .bf16 < FTy.bits .f32
  inb_S2000x32_S2000x32_0_0 : ∀ a, (![0, 0] : Fin 2 → Nat) a + S2000x32.size a ≤ S2000x32.size a
  h_S2000x32 : 0 < S2000x32.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S128 : S128.ShapeCasts S128
  inb_S32_S32_0 : ∀ a, (![0] : Fin 1 → Nat) a + S32.size a ≤ S32.size a
  h_S32 : 0 < S32.numel
  inb_S32x9_S32x9_0_0 : ∀ a, (![0, 0] : Fin 2 → Nat) a + S32x9.size a ≤ S32x9.size a
  h_S32x9 : 0 < S32x9.numel
  inb_S9_S9_0 : ∀ a, (![0] : Fin 1 → Nat) a + S9.size a ≤ S9.size a
  h_S9 : 0 < S9.numel
  shapeCasts_S128_S1x128 : S128.ShapeCasts S1x128
  broadcasts_S1x128_S2000x128 : S1x128.Broadcasts S2000x128
  slices_S2000x128_o0_0_S2000x32 : S2000x128.Slices ![0, 0] S2000x32
  slices_S2000x128_o0_32_S2000x32 : S2000x128.Slices ![0, 32] S2000x32
  slices_S2000x128_o0_64_S2000x32 : S2000x128.Slices ![0, 64] S2000x32
  slices_S2000x128_o0_96_S2000x32 : S2000x128.Slices ![0, 96] S2000x32
  shapeCasts_S32_S1x32 : S32.ShapeCasts S1x32
  broadcasts_S1x32_S2000x32 : S1x32.Broadcasts S2000x32
  shapeCasts_S9_S1x9 : S9.ShapeCasts S1x9
  broadcasts_S1x9_S2000x9 : S1x9.Broadcasts S2000x9
  inb_S2000x9_S2000x9_0_0 : ∀ a, (![0, 0] : Fin 2 → Nat) a + S2000x9.size a ≤ S2000x9.size a
  h_S2000x9 : 0 < S2000x9.numel
  dot_S2000x8_S8x128_S2000x128_1_0_0_1_n_n_wf : DotDims.WF S2000x8 S8x128 S2000x128 [1] [0] [0] [1] [] []
  dot_S2000x32_S32x128_S2000x128_1_0_0_1_n_n_wf : DotDims.WF S2000x32 S32x128 S2000x128 [1] [0] [0] [1] [] []
  dot_S2000x32_S32x9_S2000x9_1_0_0_1_n_n_wf : DotDims.WF S2000x32 S32x9 S2000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S1000000x8.size a
  hwx0_0 : ∀ i : grid0.Coords, EltTy.bits .f32 = 32 ∨ (Rect.block (s := S1000000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S1000000x32.size a
  hwx0_1 : ∀ i : grid0.Coords, EltTy.bits .f32 = 32 ∨ (Rect.block (s := S1000000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S1000000x32.size a
  hwx0_2 : ∀ i : grid0.Coords, EltTy.bits .f32 = 32 ∨ (Rect.block (s := S1000000x32) S2000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x9.size a ≤ S32x9.size a
  hwx0_9 : ∀ i : grid0.Coords, EltTy.bits .f32 = 32 ∨ (Rect.block (s := S32x9) S32x9.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S9.size a ≤ S9.size a
  hwx0_10 : ∀ i : grid0.Coords, EltTy.bits .f32 = 32 ∨ (Rect.block (s := S9) S9.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x9.size a ≤ S1000000x9.size a
  hwx0_11 : ∀ i : grid0.Coords, EltTy.bits .f32 = 32 ∨ (Rect.block (s := S1000000x9) S2000x9.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x32.size a ≤ S1000000x32.size a
  hwx0_12 : ∀ i : grid0.Coords, EltTy.bits .f32 = 32 ∨ (Rect.block (s := S1000000x32) S2000x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x32.size a ≤ S1000000x32.size a
  hwx0_13 : ∀ i : grid0.Coords, EltTy.bits .f32 = 32 ∨ (Rect.block (s := S1000000x32) S2000x32.size (cc0_transform_13 i) (hinb0_13 i)).WholeWords (EltTy.packing .f32)

variable [Facts₀]

def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x32_S32x9_S2000x9_1_0_0_1_n_n : DotDims S2000x32 S32x9 S2000x9 where
  lhsContracting := [1]
  rhsContracting := [0]
  lhsNonContracting := [0]
  rhsNonContracting := [1]
  lhsBatch := []
  rhsBatch := []
  wf := dot_S2000x32_S32x9_S2000x9_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg27) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg28) S32x9.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg29) S9.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S2000x9.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S2000x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11_2) S2000x32.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x8 : Shape := ⟨2, ![1000000, 8]⟩
abbrev S2x4000000 : Shape := ⟨2, ![2, 4000000]⟩
abbrev S4000000 : Shape := ⟨1, ![4000000]⟩
abbrev S1000000x32 : Shape := ⟨2, ![1000000, 32]⟩
abbrev S8x32 : Shape := ⟨2, ![8, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S1x32 : Shape := ⟨2, ![1, 32]⟩
abbrev S_ : Shape := ⟨0, ![]⟩
abbrev S1000000x9 : Shape := ⟨2, ![1000000, 9]⟩
abbrev S1x9 : Shape := ⟨2, ![1, 9]⟩

abbrev nBuf : Space → Nat
  | .hbm => 127
  | .vmem => 0
  | .smem => 0
  | _ => 0

abbrev bufTy : (tb : Table) → Fin (tcTables nBuf tb) → BufTy
  | .hbm, ⟨0, _⟩ => ⟨S1000000x8, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S8x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S8x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S8x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32, .f32⟩
  | .hbm, ⟨22, _⟩ => ⟨S8x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32x9, .f32⟩
  | .hbm, ⟨29, _⟩ => ⟨S9, .f32⟩
  | .hbm, ⟨30, _⟩ => ⟨S1000000x32, .f32⟩
  | .hbm, ⟨31, _⟩ => ⟨S1x32, .f32⟩
  | .hbm, ⟨32, _⟩ => ⟨S1000000x32, .f32⟩
  | .hbm, ⟨33, _⟩ => ⟨S1000000x32, .f32⟩
  | .hbm, ⟨34, _⟩ => ⟨S1000000x32, .f32⟩
  | .hbm, ⟨35, _⟩ => ⟨S1000000x32, .f32⟩
  | .hbm, ⟨36, _⟩ => ⟨S1x32, .f32⟩
  | .hbm, ⟨37, _⟩ => ⟨S1000000x32, .f32⟩
  | .hbm, ⟨38, _⟩ => ⟨S1000000x32, .f32⟩
  | .hbm, ⟨39, _⟩ => ⟨S1x32, .f32⟩
  | .hbm, ⟨40, _⟩ => ⟨S1000000x32, .f32⟩
  | .hbm, ⟨41, _⟩ => ⟨S1000000x32, .f32⟩
  | .hbm, ⟨42, _⟩ => ⟨S1000000x32, .f32⟩
  | .hbm, ⟨43, _⟩ => ⟨S1x32, .f32⟩
  | .hbm, ⟨44, _⟩ => ⟨S1000000x32, .f32⟩
  | .hbm, ⟨45, _⟩ => ⟨S1000000x32, .f32⟩
  | .hbm, ⟨46, _⟩ => ⟨S1000000x32, .f32⟩
  | .hbm, ⟨47, _⟩ => ⟨S1000000x32, .f32⟩
  | .hbm, ⟨48, _⟩ => ⟨S_, .f32⟩
  | .hbm, ⟨49, _⟩ => ⟨S1000000x32, .f32⟩
  | .hbm, ⟨50, _⟩ => ⟨S1000000x32, .f32⟩
  | .hbm, ⟨51, _⟩ => ⟨S_, .f32⟩
  | .hbm, ⟨52, _⟩ => ⟨S1000000x32, .f32⟩
  | .hbm, ⟨53, _⟩ => ⟨S1000000x32, .f32⟩
  | .hbm, ⟨54, _⟩ => ⟨S1000000x32, .f32⟩
  | .hbm, ⟨55, _⟩ => ⟨S1x32, .f32⟩
  | .hbm, ⟨56, _⟩ => ⟨S1000000x32, .f32⟩
  | .hbm, ⟨57, _⟩ => ⟨S1000000x32, .f32⟩
  | .hbm, ⟨58, _⟩ => ⟨S1000000x32, .f32⟩
  | .hbm, ⟨59, _⟩ => ⟨S1000000x32, .f32⟩
  | .hbm, ⟨60, _⟩ => ⟨S1x32, .f32⟩
  | .hbm, ⟨61, _⟩ => ⟨S1000000x32, .f32⟩
  | .hbm, ⟨62, _⟩ => ⟨S1000000x32, .f32⟩
  | .hbm, ⟨63, _⟩ => ⟨S1x32, .f32⟩
  | .hbm, ⟨64, _⟩ => ⟨S1000000x32, .f32⟩
  | .hbm, ⟨65, _⟩ => ⟨S1000000x32, .f32⟩
  | .hbm, ⟨66, _⟩ => ⟨S1000000x32, .f32⟩
  | .hbm, ⟨67, _⟩ => ⟨S1x32, .f32⟩
  | .hbm, ⟨68, _⟩ => ⟨S1000000x32, .f32⟩
  | .hbm, ⟨69, _⟩ => ⟨S1000000x32, .f32⟩
  | .hbm, ⟨70, _⟩ => ⟨S1000000x32, .f32⟩
  | .hbm, ⟨71, _⟩ => ⟨S1000000x32, .f32⟩
  | .hbm, ⟨72, _⟩ => ⟨S_, .f32⟩
  | .hbm, ⟨73, _⟩ => ⟨S1000000x32, .f32⟩
  | .hbm, ⟨74, _⟩ => ⟨S1000000x32, .f32⟩
  | .hbm, ⟨75, _⟩ => ⟨S_, .f32⟩
  | .hbm, ⟨76, _⟩ => ⟨S1000000x32, .f32⟩
  | .hbm, ⟨77, _⟩ => ⟨S1000000x32, .f32⟩
  | .hbm, ⟨78, _⟩ => ⟨S1000000x32, .f32⟩
  | .hbm, ⟨79, _⟩ => ⟨S1x32, .f32⟩
  | .hbm, ⟨80, _⟩ => ⟨S1000000x32, .f32⟩
  | .hbm, ⟨81, _⟩ => ⟨S1000000x32, .f32⟩
  | .hbm, ⟨82, _⟩ => ⟨S1000000x32, .f32⟩
  | .hbm, ⟨83, _⟩ => ⟨S1000000x32, .f32⟩
  | .hbm, ⟨84, _⟩ => ⟨S1x32, .f32⟩
  | .hbm, ⟨85, _⟩ => ⟨S1000000x32, .f32⟩
  | .hbm, ⟨86, _⟩ => ⟨S1000000x32, .f32⟩
  | .hbm, ⟨87, _⟩ => ⟨S1x32, .f32⟩
  | .hbm, ⟨88, _⟩ => ⟨S1000000x32, .f32⟩
  | .hbm, ⟨89, _⟩ => ⟨S1000000x32, .f32⟩
  | .hbm, ⟨90, _⟩ => ⟨S1000000x32, .f32⟩
  | .hbm, ⟨91, _⟩ => ⟨S1000000x32, .f32⟩
  | .hbm, ⟨92, _⟩ => ⟨S1000000x32, .f32⟩
  | .hbm, ⟨93, _⟩ => ⟨S1000000x32, .f32⟩
  | .hbm, ⟨94, _⟩ => ⟨S1000000x32, .f32⟩
  | .hbm, ⟨95, _⟩ => ⟨S1x32, .f32⟩
  | .hbm, ⟨96, _⟩ => ⟨S1000000x32, .f32⟩
  | .hbm, ⟨97, _⟩ => ⟨S1000000x32, .f32⟩
  | .hbm, ⟨98, _⟩ => ⟨S1000000x32, .f32⟩
  | .hbm, ⟨99, _⟩ => ⟨S1000000x32, .f32⟩
  | .hbm, ⟨100, _⟩ => ⟨S1x32, .f32⟩
  | .hbm, ⟨101, _⟩ => ⟨S1000000x32, .f32⟩
  | .hbm, ⟨102, _⟩ => ⟨S1000000x32, .f32⟩
  | .hbm, ⟨103, _⟩ => ⟨S1x32, .f32⟩
  | .hbm, ⟨104, _⟩ => ⟨S1000000x32, .f32⟩
  | .hbm, ⟨105, _⟩ => ⟨S1000000x32, .f32⟩
  | .hbm, ⟨106, _⟩ => ⟨S1000000x32, .f32⟩
  | .hbm, ⟨107, _⟩ => ⟨S1x32, .f32⟩
  | .hbm, ⟨108, _⟩ => ⟨S1000000x32, .f32⟩
  | .hbm, ⟨109, _⟩ => ⟨S1000000x32, .f32⟩
  | .hbm, ⟨110, _⟩ => ⟨S1000000x32, .f32⟩
  | .hbm, ⟨111, _⟩ => ⟨S1000000x32, .f32⟩
  | .hbm, ⟨112, _⟩ => ⟨S_, .f32⟩
  | .hbm, ⟨113, _⟩ => ⟨S1000000x32, .f32⟩
  | .hbm, ⟨114, _⟩ => ⟨S1000000x32, .f32⟩
  | .hbm, ⟨115, _⟩ => ⟨S_, .f32⟩
  | .hbm, ⟨116, _⟩ => ⟨S1000000x32, .f32⟩
  | .hbm, ⟨117, _⟩ => ⟨S1000000x32, .f32⟩
  | .hbm, ⟨118, _⟩ => ⟨S1000000x32, .f32⟩
  | .hbm, ⟨119, _⟩ => ⟨S1000000x32, .f32⟩
  | .hbm, ⟨120, _⟩ => ⟨S_, .f32⟩
  | .hbm, ⟨121, _⟩ => ⟨S1000000x32, .f32⟩
  | .hbm, ⟨122, _⟩ => ⟨S1000000x32, .f32⟩
  | .hbm, ⟨123, _⟩ => ⟨S1000000x9, .f32⟩
  | .hbm, ⟨124, _⟩ => ⟨S1x9, .f32⟩
  | .hbm, ⟨125, _⟩ => ⟨S1000000x9, .f32⟩
  | .hbm, ⟨126, _⟩ => ⟨S1000000x9, .f32⟩
  | _, _ => ⟨S1000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_cst_0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_1 : Ref sig .tc := ⟨.hbm, 72, rfl⟩
abbrev main_v40 : Ref sig .tc := ⟨.hbm, 73, rfl⟩
abbrev main_v41 : Ref sig .tc := ⟨.hbm, 74, rfl⟩
abbrev main_cst_2 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_3 : Ref sig .tc := ⟨.hbm, 112, rfl⟩
abbrev main_v78 : Ref sig .tc := ⟨.hbm, 113, rfl⟩
abbrev main_v79 : Ref sig .tc := ⟨.hbm, 114, rfl⟩
abbrev main_cst_4 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call0_cst : Ref sig .tc := ⟨.hbm, 120, rfl⟩
abbrev main_call0_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S9_S1x9_1 : S9.BroadcastsInDim S1x9 (![1] : Fin 1 → Fin S1x9.rank)
  bcast_S1x9_S1000000x9_0_1 : S1x9.BroadcastsInDim S1000000x9 (![0, 1] : Fin 2 → Fin S1000000x9.rank)
  dot_S1000000x8_S8x32_S1000000x32_1_0_0_1_n_n_wf : DotDims.WF S1000000x8 S8x32 S1000000x32 [1] [0] [0] [1] [] []
  dot_S1000000x32_S32x32_S1000000x32_1_0_0_1_n_n_wf : DotDims.WF S1000000x32 S32x32 S1000000x32 [1] [0] [0] [1] [] []
  dot_S1000000x32_S32x9_S1000000x9_1_0_0_1_n_n_wf : DotDims.WF S1000000x32 S32x9 S1000000x9 [1] [0] [0] [1] [] []

variable [Facts₀]

def dot_S1000000x8_S8x32_S1000000x32_1_0_0_1_n_n : DotDims S1000000x8 S8x32 S1000000x32 where
  lhsContracting := [1]
  rhsContracting := [0]
  lhsNonContracting := [0]
  rhsNonContracting := [1]
  lhsBatch := []
  rhsBatch := []
  wf := dot_S1000000x8_S8x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x9_S1000000x9_1_0_0_1_n_n : DotDims S1000000x32 S32x9 S1000000x9 where
  lhsContracting := [1]
  rhsContracting := [0]
  lhsNonContracting := [0]
  rhsNonContracting := [1]
  lhsBatch := []
  rhsBatch := []
  wf := dot_S1000000x32_S32x9_S1000000x9_1_0_0_1_n_n_wf

class Facts : Prop extends Facts₀ where

variable [Facts]
-- ==== Proof.FrameBits.lean ====
/-
  The frame of the program `Kernel`: its @main is eleven host operations (eight sums of bias vectors, three
  concatenations) followed by one pipelined region over a grid of 500 points with fourteen windows. This module
  proves, at any float family, that every weakly fair execution of @main on the TensorCores runs to the end and
  faults nowhere, that each of the three result arrays ends as the blocks the 500 points wrote into it, and that
  the thirty argument arrays end exactly as they were launched.

  The road: @main up to the region is the fold of the host operations over the launch memory (`V`), none of which
  writes an argument; at every point each of the eleven input windows' staging buffers holds that window's block
  of its array (whether the pipeline fetched it at that point or only at the first), the body loads the eleven
  buffers whole, computes, and stores each of the three output buffers whole, so what it leaves in an output
  buffer is a closed function of the eleven input blocks (`out0_11`, `out0_12`, `out0_13`); the pipeline
  library's frame run then gives the final memory, read at the argument arrays.
-/
import proofs.«123048_j70781061038141_1_alg».proof.Proof.Gen.Kernel.Launch
import proofs.«123048_j70781061038141_1_alg».proof.Proof.Gen.Kernel.Skeleton
import proofs.«123048_j70781061038141_1_alg».proof.Proof.Gen.Kernel.Points
import Idealize.ShloMosaic.Lib.Pipeline.FrameBody
import Idealize.ShloMosaic.Lib.Ring
import Idealize.ShloMosaic.Lib.Tactic

-- membership in a rectangle of 2000 rows: the elaborator's structural look recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the eleven host operations,
    as a fold that is never evaluated. -/
abbrev V (c : Dev nD) (b : Ref sig .tc) : Buf (Elt F) ((c : Thread nD τ).loc b) :=
  StableHlo.after hostOps0 (fun b => m (c, b)) b

theorem V_eq (c : Dev nD) (b : Ref sig .tc) : V m c b = StableHlo.after hostOps0 (fun b => m (c, b)) b := rfl

/-- No host operation allocates. -/
theorem hostOps0_fresh : (hostOps0 : List (HloOp τ sig (Elt F))).Forall fun op => op.fresh = ∅ := by
  simp only [List.Forall]; repeat' constructor

/-- @main is the host operations, then the region: so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a fresh value, never `main_arg0`: the region finds that argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg1`: the region finds that argument as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg2`: the region finds that argument as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg3`: the region finds that argument as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg4`: the region finds that argument as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg5`: the region finds that argument as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg6`: the region finds that argument as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg7`: the region finds that argument as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg8`: the region finds that argument as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg9`: the region finds that argument as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg10`: the region finds that argument as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg11`: the region finds that argument as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg12`: the region finds that argument as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg13`: the region finds that argument as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg14`: the region finds that argument as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg15`: the region finds that argument as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg16`: the region finds that argument as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg17`: the region finds that argument as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg18`: the region finds that argument as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg19`: the region finds that argument as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg20`: the region finds that argument as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg21`: the region finds that argument as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg22`: the region finds that argument as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg23`: the region finds that argument as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg24`: the region finds that argument as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg25`: the region finds that argument as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg26`: the region finds that argument as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg27`: the region finds that argument as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg28`: the region finds that argument as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg29`: the region finds that argument as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.binary_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: where the pipeline does not fetch, the block
    index has not moved since the point before, and the buffer still holds that point's block, which is this one's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: where the pipeline does not fetch, the block
    index has not moved since the point before, and the buffer still holds that point's block, which is this one's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: where the pipeline does not fetch, the block
    index has not moved since the point before, and the buffer still holds that point's block, which is this one's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: where the pipeline does not fetch, the block
    index has not moved since the point before, and the buffer still holds that point's block, which is this one's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: where the pipeline does not fetch, the block
    index has not moved since the point before, and the buffer still holds that point's block, which is this one's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place: where the pipeline does not fetch, the block
    index has not moved since the point before, and the buffer still holds that point's block, which is this one's. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place: where the pipeline does not fetch, the block
    index has not moved since the point before, and the buffer still holds that point's block, which is this one's. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s and whose body leaves the block in place: where the pipeline does not fetch, the block
    index has not moved since the point before, and the buffer still holds that point's block, which is this one's. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s and whose body leaves the block in place: where the pipeline does not fetch, the block
    index has not moved since the point before, and the buffer still holds that point's block, which is this one's. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s and whose body leaves the block in place: where the pipeline does not fetch, the block
    index has not moved since the point before, and the buffer still holds that point's block, which is this one's. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s and whose body leaves the block in place: where the pipeline does not fetch, the block
    index has not moved since the point before, and the buffer still holds that point's block, which is this one's. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the pipeline library's frame
    post, read at the thirty argument arrays — an argument a window stages as an input keeps its entry contents, any
    other is untouched by the region, and either way no host operation wrote it — leaves every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats 0 c).arrAt_in 7 rfl _).trans ((hA c 7).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).1 8).trans (((dats 0 c).arrAt_in 8 rfl _).trans ((hA c 8).trans (V_main_arg27 m c))),
      ((h c).1 9).trans (((dats 0 c).arrAt_in 9 rfl _).trans ((hA c 9).trans (V_main_arg28 m c))),
      ((h c).1 10).trans (((dats 0 c).arrAt_in 10 rfl _).trans ((hA c 10).trans (V_main_arg29 m c)))⟩) h

/-! ## The body's accesses -/

/-- The body touches every staging buffer through the one rectangle that is the whole buffer. -/
abbrev r0_0 : Rect S2000x8 := Rect.unit (s := S2000x8) ![0, 0] S2000x8.size inb_S2000x8_S2000x8_0_0
abbrev r0_1 : Rect S2000x32 := Rect.unit (s := S2000x32) ![0, 0] S2000x32.size inb_S2000x32_S2000x32_0_0
abbrev r0_2 : Rect S8x128 := Rect.unit (s := S8x128) ![0, 0] S8x128.size inb_S8x128_S8x128_0_0
abbrev r0_3 : Rect S32x128 := Rect.unit (s := S32x128) ![0, 0] S32x128.size inb_S32x128_S32x128_0_0
abbrev r0_4 : Rect S128 := Rect.unit (s := S128) ![0] S128.size inb_S128_S128_0
abbrev r0_5 : Rect S32 := Rect.unit (s := S32) ![0] S32.size inb_S32_S32_0
abbrev r0_6 : Rect S32x9 := Rect.unit (s := S32x9) ![0, 0] S32x9.size inb_S32x9_S32x9_0_0
abbrev r0_7 : Rect S9 := Rect.unit (s := S9) ![0] S9.size inb_S9_S9_0
abbrev r0_8 : Rect S2000x9 := Rect.unit (s := S2000x9) ![0, 0] S2000x9.size inb_S2000x9_S2000x9_0_0

/-! ## What the body leaves in each output window's buffer -/

/-- Window 11's staging buffer after the body, from the eleven input blocks: its one store, of the whole buffer. -/
def out0_11 (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) : Vec F S2000x9 .f32 :=
  View.canon [⟨r0_8, k0_pay3 (View.ld x2 r0_1) (View.ld x8 r0_5) (k0_pay4 (View.ld x9 r0_6)) (View.ld x10 r0_7) (k0_pay6 (View.ld x0 r0_0) (View.ld x1 r0_1) (View.ld x3 r0_2) (View.ld x4 r0_3) (View.ld x5 r0_4)) (k0_pay7 (View.ld x0 r0_0) (View.ld x1 r0_1) (View.ld x2 r0_1) (View.ld x3 r0_2) (View.ld x4 r0_3) (View.ld x5 r0_4) (View.ld x6 r0_5)) (k0_pay8 (View.ld x0 r0_0) (View.ld x1 r0_1) (View.ld x2 r0_1) (View.ld x3 r0_2) (View.ld x4 r0_3) (View.ld x5 r0_4) (View.ld x7 r0_5)) (k0_pay9 (View.ld x0 r0_0) (View.ld x1 r0_1) (View.ld x3 r0_2) (View.ld x4 r0_3) (View.ld x5 r0_4))⟩]

/-- Window 12's staging buffer after the body, from the eleven input blocks: its one store, of the whole buffer. -/
def out0_12 (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) : Vec F S2000x32 .f32 :=
  View.canon [⟨r0_1, k0_pay2 (View.ld x2 r0_1) (View.ld x8 r0_5) (k0_pay6 (View.ld x0 r0_0) (View.ld x1 r0_1) (View.ld x3 r0_2) (View.ld x4 r0_3) (View.ld x5 r0_4)) (k0_pay7 (View.ld x0 r0_0) (View.ld x1 r0_1) (View.ld x2 r0_1) (View.ld x3 r0_2) (View.ld x4 r0_3) (View.ld x5 r0_4) (View.ld x6 r0_5)) (k0_pay8 (View.ld x0 r0_0) (View.ld x1 r0_1) (View.ld x2 r0_1) (View.ld x3 r0_2) (View.ld x4 r0_3) (View.ld x5 r0_4) (View.ld x7 r0_5)) (k0_pay9 (View.ld x0 r0_0) (View.ld x1 r0_1) (View.ld x3 r0_2) (View.ld x4 r0_3) (View.ld x5 r0_4))⟩]

/-- Window 13's staging buffer after the body, from the eleven input blocks: its one store, of the whole buffer. -/
def out0_13 (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) : Vec F S2000x32 .f32 :=
  View.canon [⟨r0_1, k0_pay1 (View.ld x2 r0_1) (k0_pay7 (View.ld x0 r0_0) (View.ld x1 r0_1) (View.ld x2 r0_1) (View.ld x3 r0_2) (View.ld x4 r0_3) (View.ld x5 r0_4) (View.ld x6 r0_5)) (k0_pay8 (View.ld x0 r0_0) (View.ld x1 r0_1) (View.ld x2 r0_1) (View.ld x3 r0_2) (View.ld x4 r0_3) (View.ld x5 r0_4) (View.ld x7 r0_5)) (k0_pay9 (View.ld x0 r0_0) (View.ld x1 r0_1) (View.ld x3 r0_2) (View.ld x4 r0_3) (View.ld x5 r0_4))⟩]

/-- The one store of window 11 is the whole buffer, so it covers it. -/
theorem cover0_11 (p0 : Vec F S2000x9 .f32) (y : S2000x9.Idx) :
    ∃ pc ∈ ([⟨r0_8, p0⟩] : List (View.Piece (Elt F) S2000x9 .f32)), y ∈ pc.1.set :=
  View.cover_of_tiled [⟨r0_8, p0⟩] S2000x9.size (by rfl) y
/-- The one store of window 12 is the whole buffer, so it covers it. -/
theorem cover0_12 (p0 : Vec F S2000x32 .f32) (y : S2000x32.Idx) :
    ∃ pc ∈ ([⟨r0_1, p0⟩] : List (View.Piece (Elt F) S2000x32 .f32)), y ∈ pc.1.set :=
  View.cover_of_tiled [⟨r0_1, p0⟩] S2000x32.size (by rfl) y
/-- The one store of window 13 is the whole buffer, so it covers it. -/
theorem cover0_13 (p0 : Vec F S2000x32 .f32) (y : S2000x32.Idx) :
    ∃ pc ∈ ([⟨r0_1, p0⟩] : List (View.Piece (Elt F) S2000x32 .f32)), y ∈ pc.1.set :=
  View.cover_of_tiled [⟨r0_1, p0⟩] S2000x32.size (by rfl) y

/-! ## The body's triple -/

set_option maxHeartbeats 1000000 in
/-- The kernel body on whole staging buffers, the eleven inputs' at read contents `x0 … x10` and the three outputs'
    at anything, runs to the continuation holding the inputs' as they were and each output's at `out0_W` of the
    inputs: the body is eleven whole-buffer loads, pure computation, and per output one dead load and one whole-buffer
    store. -/
theorem sound_kernel (c : Dev nD) (E : Set ℕ) (i : grid0.Coords) (arg1 : Memref sig .tc .vmem S2000x8 .f32) (harg1 : arg1.IsWhole) (arg2 : Memref sig .tc .vmem S2000x32 .f32) (harg2 : arg2.IsWhole) (arg3 : Memref sig .tc .vmem S2000x32 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S128 .f32) (harg6 : arg6.IsWhole) (arg7 : Memref sig .tc .vmem S32 .f32) (harg7 : arg7.IsWhole) (arg8 : Memref sig .tc .vmem S32 .f32) (harg8 : arg8.IsWhole) (arg9 : Memref sig .tc .vmem S32 .f32) (harg9 : arg9.IsWhole) (arg10 : Memref sig .tc .vmem S32x9 .f32) (harg10 : arg10.IsWhole) (arg11 : Memref sig .tc .vmem S9 .f32) (harg11 : arg11.IsWhole) (arg12 : Memref sig .tc .vmem S2000x9 .f32) (harg12 : arg12.IsWhole) (arg13 : Memref sig .tc .vmem S2000x32 .f32) (harg13 : arg13.IsWhole) (arg14 : Memref sig .tc .vmem S2000x32 .f32) (harg14 : arg14.IsWhole)
    (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0__gconvlstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gconvlstm_kernel_eq_skeleton]; unfold cc0__gconvlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The pipeline's proof data -/

/-- The proof data of the one pipeline on core `c`: the arrays as the region finds them; after the body at point `t`
    each input's buffer at its block and each output's at `out0_W` of the eleven input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents, by projection: the fold `V` is never opened. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the body's triple applies; the invariant and
    the core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the points wrote into
    it over its entry contents and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Fr.run_main' depends on axioms: [propext, Classical.choice, Quot.sound] -/
#guard_msgs in #print axioms run_main

/-- The frame: @main runs to the end, faults nowhere, and leaves each of its thirty argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.Kernel.Fr

end
-- ==== Proof.FrameIdeal.lean ====
/-
  The frame of the program `KernelIdeal`: its @main is eleven host operations (eight sums of bias vectors, three
  concatenations) followed by one pipelined region over a grid of 500 points with fourteen windows. This module
  proves, at any float family, that every weakly fair execution of @main on the TensorCores runs to the end and
  faults nowhere, that each of the three result arrays ends as the blocks the 500 points wrote into it, and that
  the thirty argument arrays end exactly as they were launched.

  The road: @main up to the region is the fold of the host operations over the launch memory (`V`), none of which
  writes an argument; at every point each of the eleven input windows' staging buffers holds that window's block
  of its array (whether the pipeline fetched it at that point or only at the first), the body loads the eleven
  buffers whole, computes, and stores each of the three output buffers whole, so what it leaves in an output
  buffer is a closed function of the eleven input blocks (`out0_11`, `out0_12`, `out0_13`); the pipeline
  library's frame run then gives the final memory, read at the argument arrays.
-/
import proofs.«123048_j70781061038141_1_alg».proof.Proof.Gen.KernelIdeal.Launch
import proofs.«123048_j70781061038141_1_alg».proof.Proof.Gen.KernelIdeal.Skeleton
import proofs.«123048_j70781061038141_1_alg».proof.Proof.Gen.KernelIdeal.Points
import Idealize.ShloMosaic.Lib.Pipeline.FrameBody
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the eleven host operations,
    as a fold that is never evaluated. -/
abbrev V (c : Dev nD) (b : Ref sig .tc) : Buf (Elt F) ((c : Thread nD τ).loc b) :=
  StableHlo.after hostOps0 (fun b => m (c, b)) b

theorem V_eq (c : Dev nD) (b : Ref sig .tc) : V m c b = StableHlo.after hostOps0 (fun b => m (c, b)) b := rfl

/-- No host operation allocates. -/
theorem hostOps0_fresh : (hostOps0 : List (HloOp τ sig (Elt F))).Forall fun op => op.fresh = ∅ := by
  simp only [List.Forall]; repeat' constructor

/-- @main is the host operations, then the region: so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a fresh value, never `main_arg0`: the region finds that argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg1`: the region finds that argument as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg2`: the region finds that argument as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg3`: the region finds that argument as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg4`: the region finds that argument as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg5`: the region finds that argument as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg6`: the region finds that argument as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg7`: the region finds that argument as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg8`: the region finds that argument as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg9`: the region finds that argument as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg10`: the region finds that argument as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg11`: the region finds that argument as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg12`: the region finds that argument as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg13`: the region finds that argument as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg14`: the region finds that argument as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg15`: the region finds that argument as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg16`: the region finds that argument as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg17`: the region finds that argument as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg18`: the region finds that argument as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg19`: the region finds that argument as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg20`: the region finds that argument as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg21`: the region finds that argument as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg22`: the region finds that argument as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg23`: the region finds that argument as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg24`: the region finds that argument as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg25`: the region finds that argument as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg26`: the region finds that argument as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg27`: the region finds that argument as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg28`: the region finds that argument as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.binary_writes, StableHlo.nary_writes, Finset.mem_singleton]
    repeat' apply And.intro
    all_goals exact StableHlo.devRef_ne_of_ne (by decide)))
/-- Every host operation writes a fresh value, never `main_arg29`: the region finds that argument as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.binary_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: where the pipeline does not fetch, the block
    index has not moved since the point before, and the buffer still holds that point's block, which is this one's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place: where the pipeline does not fetch, the block
    index has not moved since the point before, and the buffer still holds that point's block, which is this one's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s and whose body leaves the block in place: where the pipeline does not fetch, the block
    index has not moved since the point before, and the buffer still holds that point's block, which is this one's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s and whose body leaves the block in place: where the pipeline does not fetch, the block
    index has not moved since the point before, and the buffer still holds that point's block, which is this one's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s and whose body leaves the block in place: where the pipeline does not fetch, the block
    index has not moved since the point before, and the buffer still holds that point's block, which is this one's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s and whose body leaves the block in place: where the pipeline does not fetch, the block
    index has not moved since the point before, and the buffer still holds that point's block, which is this one's. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s and whose body leaves the block in place: where the pipeline does not fetch, the block
    index has not moved since the point before, and the buffer still holds that point's block, which is this one's. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s and whose body leaves the block in place: where the pipeline does not fetch, the block
    index has not moved since the point before, and the buffer still holds that point's block, which is this one's. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s and whose body leaves the block in place: where the pipeline does not fetch, the block
    index has not moved since the point before, and the buffer still holds that point's block, which is this one's. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s and whose body leaves the block in place: where the pipeline does not fetch, the block
    index has not moved since the point before, and the buffer still holds that point's block, which is this one's. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s and whose body leaves the block in place: where the pipeline does not fetch, the block
    index has not moved since the point before, and the buffer still holds that point's block, which is this one's. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the pipeline library's frame
    post, read at the thirty argument arrays — an argument a window stages as an input keeps its entry contents, any
    other is untouched by the region, and either way no host operation wrote it — leaves every argument as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats 0 c).arrAt_in 7 rfl _).trans ((hA c 7).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).1 8).trans (((dats 0 c).arrAt_in 8 rfl _).trans ((hA c 8).trans (V_main_arg27 m c))),
      ((h c).1 9).trans (((dats 0 c).arrAt_in 9 rfl _).trans ((hA c 9).trans (V_main_arg28 m c))),
      ((h c).1 10).trans (((dats 0 c).arrAt_in 10 rfl _).trans ((hA c 10).trans (V_main_arg29 m c)))⟩) h

/-! ## The body's accesses -/

/-- The body touches every staging buffer through the one rectangle that is the whole buffer. -/
abbrev r0_0 : Rect S2000x8 := Rect.unit (s := S2000x8) ![0, 0] S2000x8.size inb_S2000x8_S2000x8_0_0
abbrev r0_1 : Rect S2000x32 := Rect.unit (s := S2000x32) ![0, 0] S2000x32.size inb_S2000x32_S2000x32_0_0
abbrev r0_2 : Rect S8x128 := Rect.unit (s := S8x128) ![0, 0] S8x128.size inb_S8x128_S8x128_0_0
abbrev r0_3 : Rect S32x128 := Rect.unit (s := S32x128) ![0, 0] S32x128.size inb_S32x128_S32x128_0_0
abbrev r0_4 : Rect S128 := Rect.unit (s := S128) ![0] S128.size inb_S128_S128_0
abbrev r0_5 : Rect S32 := Rect.unit (s := S32) ![0] S32.size inb_S32_S32_0
abbrev r0_6 : Rect S32x9 := Rect.unit (s := S32x9) ![0, 0] S32x9.size inb_S32x9_S32x9_0_0
abbrev r0_7 : Rect S9 := Rect.unit (s := S9) ![0] S9.size inb_S9_S9_0
abbrev r0_8 : Rect S2000x9 := Rect.unit (s := S2000x9) ![0, 0] S2000x9.size inb_S2000x9_S2000x9_0_0

/-! ## What the body leaves in each output window's buffer -/

/-- Window 11's staging buffer after the body, from the eleven input blocks: its one store, of the whole buffer. -/
def out0_11 (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) : Vec F S2000x9 .f32 :=
  View.canon [⟨r0_8, k0_pay3 (View.ld x2 r0_1) (View.ld x8 r0_5) (k0_pay4 (View.ld x9 r0_6)) (View.ld x10 r0_7) (k0_pay6 (View.ld x0 r0_0) (View.ld x1 r0_1) (View.ld x3 r0_2) (View.ld x4 r0_3) (View.ld x5 r0_4)) (k0_pay7 (View.ld x0 r0_0) (View.ld x1 r0_1) (View.ld x2 r0_1) (View.ld x3 r0_2) (View.ld x4 r0_3) (View.ld x5 r0_4) (View.ld x6 r0_5)) (k0_pay8 (View.ld x0 r0_0) (View.ld x1 r0_1) (View.ld x2 r0_1) (View.ld x3 r0_2) (View.ld x4 r0_3) (View.ld x5 r0_4) (View.ld x7 r0_5)) (k0_pay9 (View.ld x0 r0_0) (View.ld x1 r0_1) (View.ld x3 r0_2) (View.ld x4 r0_3) (View.ld x5 r0_4))⟩]

/-- Window 12's staging buffer after the body, from the eleven input blocks: its one store, of the whole buffer. -/
def out0_12 (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) : Vec F S2000x32 .f32 :=
  View.canon [⟨r0_1, k0_pay2 (View.ld x2 r0_1) (View.ld x8 r0_5) (k0_pay6 (View.ld x0 r0_0) (View.ld x1 r0_1) (View.ld x3 r0_2) (View.ld x4 r0_3) (View.ld x5 r0_4)) (k0_pay7 (View.ld x0 r0_0) (View.ld x1 r0_1) (View.ld x2 r0_1) (View.ld x3 r0_2) (View.ld x4 r0_3) (View.ld x5 r0_4) (View.ld x6 r0_5)) (k0_pay8 (View.ld x0 r0_0) (View.ld x1 r0_1) (View.ld x2 r0_1) (View.ld x3 r0_2) (View.ld x4 r0_3) (View.ld x5 r0_4) (View.ld x7 r0_5)) (k0_pay9 (View.ld x0 r0_0) (View.ld x1 r0_1) (View.ld x3 r0_2) (View.ld x4 r0_3) (View.ld x5 r0_4))⟩]

/-- Window 13's staging buffer after the body, from the eleven input blocks: its one store, of the whole buffer. -/
def out0_13 (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) : Vec F S2000x32 .f32 :=
  View.canon [⟨r0_1, k0_pay1 (View.ld x2 r0_1) (k0_pay7 (View.ld x0 r0_0) (View.ld x1 r0_1) (View.ld x2 r0_1) (View.ld x3 r0_2) (View.ld x4 r0_3) (View.ld x5 r0_4) (View.ld x6 r0_5)) (k0_pay8 (View.ld x0 r0_0) (View.ld x1 r0_1) (View.ld x2 r0_1) (View.ld x3 r0_2) (View.ld x4 r0_3) (View.ld x5 r0_4) (View.ld x7 r0_5)) (k0_pay9 (View.ld x0 r0_0) (View.ld x1 r0_1) (View.ld x3 r0_2) (View.ld x4 r0_3) (View.ld x5 r0_4))⟩]

/-- The one store of window 11 is the whole buffer, so it covers it. -/
theorem cover0_11 (p0 : Vec F S2000x9 .f32) (y : S2000x9.Idx) :
    ∃ pc ∈ ([⟨r0_8, p0⟩] : List (View.Piece (Elt F) S2000x9 .f32)), y ∈ pc.1.set :=
  View.cover_of_tiled [⟨r0_8, p0⟩] S2000x9.size (by rfl) y
/-- The one store of window 12 is the whole buffer, so it covers it. -/
theorem cover0_12 (p0 : Vec F S2000x32 .f32) (y : S2000x32.Idx) :
    ∃ pc ∈ ([⟨r0_1, p0⟩] : List (View.Piece (Elt F) S2000x32 .f32)), y ∈ pc.1.set :=
  View.cover_of_tiled [⟨r0_1, p0⟩] S2000x32.size (by rfl) y
/-- The one store of window 13 is the whole buffer, so it covers it. -/
theorem cover0_13 (p0 : Vec F S2000x32 .f32) (y : S2000x32.Idx) :
    ∃ pc ∈ ([⟨r0_1, p0⟩] : List (View.Piece (Elt F) S2000x32 .f32)), y ∈ pc.1.set :=
  View.cover_of_tiled [⟨r0_1, p0⟩] S2000x32.size (by rfl) y

/-! ## The body's triple -/

set_option maxHeartbeats 1000000 in
/-- The kernel body on whole staging buffers, the eleven inputs' at read contents `x0 … x10` and the three outputs'
    at anything, runs to the continuation holding the inputs' as they were and each output's at `out0_W` of the
    inputs: the body is eleven whole-buffer loads, pure computation, and per output one dead load and one whole-buffer
    store. -/
theorem sound_kernel (c : Dev nD) (E : Set ℕ) (i : grid0.Coords) (arg1 : Memref sig .tc .vmem S2000x8 .f32) (harg1 : arg1.IsWhole) (arg2 : Memref sig .tc .vmem S2000x32 .f32) (harg2 : arg2.IsWhole) (arg3 : Memref sig .tc .vmem S2000x32 .f32) (harg3 : arg3.IsWhole) (arg4 : Memref sig .tc .vmem S8x128 .f32) (harg4 : arg4.IsWhole) (arg5 : Memref sig .tc .vmem S32x128 .f32) (harg5 : arg5.IsWhole) (arg6 : Memref sig .tc .vmem S128 .f32) (harg6 : arg6.IsWhole) (arg7 : Memref sig .tc .vmem S32 .f32) (harg7 : arg7.IsWhole) (arg8 : Memref sig .tc .vmem S32 .f32) (harg8 : arg8.IsWhole) (arg9 : Memref sig .tc .vmem S32 .f32) (harg9 : arg9.IsWhole) (arg10 : Memref sig .tc .vmem S32x9 .f32) (harg10 : arg10.IsWhole) (arg11 : Memref sig .tc .vmem S9 .f32) (harg11 : arg11.IsWhole) (arg12 : Memref sig .tc .vmem S2000x9 .f32) (harg12 : arg12.IsWhole) (arg13 : Memref sig .tc .vmem S2000x32 .f32) (harg13 : arg13.IsWhole) (arg14 : Memref sig .tc .vmem S2000x32 .f32) (harg14 : arg14.IsWhole)
    (x0 : Vec F S2000x8 .f32) (x1 x2 : Vec F S2000x32 .f32) (x3 : Vec F S8x128 .f32) (x4 : Vec F S32x128 .f32) (x5 : Vec F S128 .f32) (x6 x7 x8 : Vec F S32 .f32) (x9 : Vec F S32x9 .f32) (x10 : Vec F S9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0__gconvlstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gconvlstm_kernel_eq_skeleton]; unfold cc0__gconvlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The pipeline's proof data -/

/-- The proof data of the one pipeline on core `c`: the arrays as the region finds them; after the body at point `t`
    each input's buffer at its block and each output's at `out0_W` of the eleven input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents, by projection: the fold `V` is never opened. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the body's triple applies; the invariant and
    the core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the points wrote into
    it over its entry contents and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Fr.run_main' depends on axioms: [propext, Classical.choice, Quot.sound] -/
#guard_msgs in #print axioms run_main

/-- The frame: @main runs to the end, faults nowhere, and leaves each of its thirty argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.KernelIdeal.Fr

end
-- ==== Proof.Spec.lean ====
/-
  The mathematics both programs compute, one row at a time, on the extended reals.

  A row of the batch is a feature vector `xr` (8 entries), a hidden state `hr` and a cell state `cr` (32 entries
  each).  Every gate `g` has an input projection `Wx` (8 x 32), a recurrent projection `Wh` (32 x 32) and three bias
  vectors; its linear part at hidden unit `j` is
      lin g xr hr j = sum_k xr k * Wx k j + bx j + sum_k hr k * Wh k j + bh j .
  With peephole weights `wci`, `wcf`, `wco` the cell and the hidden state of the row become
      i = logistic (lin gi + wci * cr + bi)        f = logistic (lin gf + wcf * cr + bf)
      t = tanh     (lin gc + bc)                   c' = f * cr + i * t
      o = logistic (lin go + wco * c' + bo)        h' = o * tanh c'
  and the read-out is y n = sum_k max (h' k) 0 * Wl k n + bl n.  No row reads another row: the whole-array results
  are these row functions applied to the rows of the three batch arrays.

  The second half of the file is the one algebraic fact that joins the two programs: a gate's argument summed in the
  order  (projections first, then the three biases added among themselves, then the peephole term)  equals the same six
  terms summed left to right with the last bias at the end.  Addition of extended reals is commutative and associative
  (also at the infinities), so no finiteness is needed.
-/
import Idealize.ShloMosaic.PureOps.Ideal
import Idealize.ShloMosaic.Lib.ValueIdx

noncomputable section

namespace Cert.GateSpec

open Idealize.ShloMosaic Idealize.ShloMosaic.ValueIdx

/-- A matrix and a vector of extended reals, indexed as the programs' arrays are. -/
abbrev Mat (a b : Nat) : Type := (⟨2, ![a, b]⟩ : Shape).Idx → EReal
abbrev Row (a : Nat) : Type := (⟨1, ![a]⟩ : Shape).Idx → EReal

/-- Row `r` of a matrix as a function of the column. -/
def rowOf {a b : Nat} (A : Mat a b) (r : Fin a) : Fin b → EReal := fun k => A (ix2 r k)

/-- One gate's parameters: the two projections and the three biases. -/
structure Gate where
  Wx : Mat 8 32
  bx : Row 32
  Wh : Mat 32 32
  bh : Row 32
  b  : Row 32

/-- All the weights of the cell: four gates, three peephole vectors, the read-out. -/
structure Params where
  gi : Gate
  gf : Gate
  gc : Gate
  go : Gate
  wci : Row 32
  wcf : Row 32
  wco : Row 32
  Wl : Mat 32 9
  bl : Row 9

/-- A gate's linear part at hidden unit `j`: both projections of the row, each followed by its bias. -/
def lin (g : Gate) (xr : Fin 8 → EReal) (hr : Fin 32 → EReal) (j : Fin 32) : EReal :=
  (∑ k : Fin 8, xr k * g.Wx (ix2 k j)) + g.bx (ix1 j) + (∑ k : Fin 32, hr k * g.Wh (ix2 k j)) + g.bh (ix1 j)

/-- The input gate. -/
def inGate (P : Params) (xr : Fin 8 → EReal) (hr cr : Fin 32 → EReal) (j : Fin 32) : EReal :=
  Ideal.logistic (lin P.gi xr hr j + P.wci (ix1 j) * cr j + P.gi.b (ix1 j))
/-- The forget gate. -/
def forgetGate (P : Params) (xr : Fin 8 → EReal) (hr cr : Fin 32 → EReal) (j : Fin 32) : EReal :=
  Ideal.logistic (lin P.gf xr hr j + P.wcf (ix1 j) * cr j + P.gf.b (ix1 j))
/-- The candidate. -/
def candidate (P : Params) (xr : Fin 8 → EReal) (hr : Fin 32 → EReal) (j : Fin 32) : EReal :=
  Ideal.tanh (lin P.gc xr hr j + P.gc.b (ix1 j))
/-- The new cell state of the row. -/
def cellRow (P : Params) (xr : Fin 8 → EReal) (hr cr : Fin 32 → EReal) (j : Fin 32) : EReal :=
  forgetGate P xr hr cr j * cr j + inGate P xr hr cr j * candidate P xr hr j
/-- The output gate, which sees the NEW cell state through its peephole. -/
def outGate (P : Params) (xr : Fin 8 → EReal) (hr cr : Fin 32 → EReal) (j : Fin 32) : EReal :=
  Ideal.logistic (lin P.go xr hr j + P.wco (ix1 j) * cellRow P xr hr cr j + P.go.b (ix1 j))
/-- The new hidden state of the row. -/
def hiddenRow (P : Params) (xr : Fin 8 → EReal) (hr cr : Fin 32 → EReal) (j : Fin 32) : EReal :=
  outGate P xr hr cr j * Ideal.tanh (cellRow P xr hr cr j)
/-- The read-out of the row: the rectified hidden state through `Wl`, plus `bl`. -/
def readoutRow (P : Params) (xr : Fin 8 → EReal) (hr cr : Fin 32 → EReal) (n : Fin 9) : EReal :=
  (∑ k : Fin 32, max (hiddenRow P xr hr cr k) 0 * P.Wl (ix2 k n)) + P.bl (ix1 n)

/-- The three results as whole arrays over a batch of `N` rows. -/
def cellArr {N : Nat} (P : Params) (x : Mat N 8) (h c : Mat N 32) : Mat N 32 :=
  fun i => cellRow P (rowOf x (i 0)) (rowOf h (i 0)) (rowOf c (i 0)) (i 1)
def hiddenArr {N : Nat} (P : Params) (x : Mat N 8) (h c : Mat N 32) : Mat N 32 :=
  fun i => hiddenRow P (rowOf x (i 0)) (rowOf h (i 0)) (rowOf c (i 0)) (i 1)
def readoutArr {N : Nat} (P : Params) (x : Mat N 8) (h c : Mat N 32) : Mat N 9 :=
  fun i => readoutRow P (rowOf x (i 0)) (rowOf h (i 0)) (rowOf c (i 0)) (i 1)

/-! ## The parameters as the programs hold them -/

/-- The gates by number, in the order the kernel lays them side by side: input, forget, candidate, output. -/
def Params.gate (P : Params) : Fin 4 → Gate
  | ⟨0, _⟩ => P.gi
  | ⟨1, _⟩ => P.gf
  | ⟨2, _⟩ => P.gc
  | ⟨3, _⟩ => P.go
  | ⟨_ + 4, h⟩ => absurd h (by omega)

/-- Column `32 g + j` of a 128-column array: hidden unit `j` of gate `g` when the four gates' 32 columns are laid
    side by side. -/
def lane (g : Fin 4) (j : Fin 32) : Fin 128 := ⟨32 * g.val + j.val, by omega⟩

/-- The parameter bundle from the 25 weight arrays, in the order both programs take them as arguments 5 to 29:
    per gate (input, forget, candidate, output) the input projection, its bias, the recurrent projection, its bias,
    the gate bias and (not for the candidate) the peephole vector; then the read-out matrix and bias. -/
def mkParams (a5 : Mat 8 32) (a6 : Row 32) (a7 : Mat 32 32) (a8 a9 a10 : Row 32)
    (a11 : Mat 8 32) (a12 : Row 32) (a13 : Mat 32 32) (a14 a15 a16 : Row 32)
    (a17 : Mat 8 32) (a18 : Row 32) (a19 : Mat 32 32) (a20 a21 : Row 32)
    (a22 : Mat 8 32) (a23 : Row 32) (a24 : Mat 32 32) (a25 a26 a27 : Row 32)
    (a28 : Mat 32 9) (a29 : Row 9) : Params where
  gi := ⟨a5, a6, a7, a8, a9⟩
  gf := ⟨a11, a12, a13, a14, a15⟩
  gc := ⟨a17, a18, a19, a20, a21⟩
  go := ⟨a22, a23, a24, a25, a26⟩
  wci := a10
  wcf := a16
  wco := a27
  Wl := a28
  bl := a29

/-! ## The one law between the two programs -/

/-- Six terms in two groupings.  On the left the projections are added first, the three biases are added among
    themselves, and the peephole term comes last; on the right the terms are added left to right in the order
    projection, bias, projection, bias, peephole, bias. -/
theorem gate_arg_regroup (A bx B bh w b : EReal) :
    ((A + B) + ((bx + bh) + b)) + w = ((((A + bx) + B) + bh) + w) + b := by
  ac_rfl

/-- The same without a peephole term. -/
theorem gate_arg_regroup' (A bx B bh b : EReal) :
    (A + B) + ((bx + bh) + b) = (((A + bx) + B) + bh) + b := by
  ac_rfl

end Cert.GateSpec

end
-- ==== Proof.HostArrays.lean ====
/-
  The three arrays the host builds before the kernel is launched, read at an index.

  The four gates' input projections (8 x 32 each) are laid side by side into one 8 x 128 array, the four recurrent
  projections (32 x 32 each) into one 32 x 128 array, and each gate's three bias vectors are first added up,
  (bx + bh) + b, and the four sums laid end to end into one vector of 128.  Column  32 g + j  of a side-by-side array
  is column `j` of gate `g`'s piece: a concatenation read at an index is the piece whose span holds the coordinate,
  read at the coordinate less the extents of the pieces before it.
-/
import proofs.«123048_j70781061038141_1_alg».proof.Proof.Gen.KernelIdeal.Launch
import proofs.«123048_j70781061038141_1_alg».proof.Proof.Spec
import Idealize.ShloMosaic.Lib.Pipeline.Value
import Idealize.ShloMosaic.Lib.StableHlo.Run
import Idealize.ShloMosaic.Lib.ValueIdx

noncomputable section

namespace Cert.KernelIdeal.HostArr

open Cert.KernelIdeal Cert.KernelIdeal.Gen Cert.GateSpec
open Idealize.ShloMosaic Idealize.ShloMosaic.TcCoe Idealize.ShloMosaic.ValueIdx Idealize.SL.Sem Idealize.ShloMosaic.StableHlo

variable [Facts]

/-! ## A four-piece concatenation at column (or position) `32 g + j` -/

section Concat
variable {α : Type}

/-- Four pieces of one shape, listed. -/
abbrev pieces4 (s : Shape) (x : Fin 4 → (s.Idx → α)) : List ((s : Shape) × (s.Idx → α)) :=
  [⟨s, x 0⟩, ⟨s, x 1⟩, ⟨s, x 2⟩, ⟨s, x 3⟩]

/-- Four [R, 32] pieces side by side: column `32 g + j` of row `k` is entry `(k, j)` of piece `g`. -/
theorem cols4_apply {R : Nat} (x : Fin 4 → ((⟨2, ![R, 32]⟩ : Shape).Idx → α))
    (h : Shape.Concatenates [(⟨2, ![R, 32]⟩ : Shape), ⟨2, ![R, 32]⟩, ⟨2, ![R, 32]⟩, ⟨2, ![R, 32]⟩] (⟨2, ![R, 128]⟩ : Shape) 1)
    (g : Fin 4) (k : Fin R) (j : Fin 32) :
    concatenate (⟨2, ![R, 128]⟩ : Shape) 1 [⟨⟨2, ![R, 32]⟩, x 0⟩, ⟨⟨2, ![R, 32]⟩, x 1⟩, ⟨⟨2, ![R, 32]⟩, x 2⟩, ⟨⟨2, ![R, 32]⟩, x 3⟩] h
      (ix2 k (lane g j)) = x g (ix2 k j) := by
  have hoff : ∀ (q : Fin 128) (b : Fin 2), b.cast (rfl : (2 : Nat) = 2) ≠ (1 : Fin 2) →
      ((ix2 k j : (⟨2, ![R, 32]⟩ : Shape).Idx) b).val = ((ix2 k q : (⟨2, ![R, 128]⟩ : Shape).Idx) (b.cast rfl)).val := by
    intro q b hb
    match b with
    | ⟨0, _⟩ => rfl
    | ⟨1, _⟩ => exact absurd rfl hb
  match g with
  | ⟨0, _⟩ =>
    exact concatenate_apply_piece (t := (⟨2, ![R, 128]⟩ : Shape)) (1 : Fin 2) (pieces4 ⟨2, ![R, 32]⟩ x) h _ 0 (by show (0 : Nat) < 4; omega)
      ⟨2, ![R, 32]⟩ (x 0) rfl rfl 0 rfl (ix2 k j) (hoff _) (by show 0 + j.val = 32 * 0 + j.val; omega)
  | ⟨1, _⟩ =>
    exact concatenate_apply_piece (t := (⟨2, ![R, 128]⟩ : Shape)) (1 : Fin 2) (pieces4 ⟨2, ![R, 32]⟩ x) h _ 1 (by show (1 : Nat) < 4; omega)
      ⟨2, ![R, 32]⟩ (x 1) rfl rfl 32 rfl (ix2 k j) (hoff _) (by show 32 + j.val = 32 * 1 + j.val; omega)
  | ⟨2, _⟩ =>
    exact concatenate_apply_piece (t := (⟨2, ![R, 128]⟩ : Shape)) (1 : Fin 2) (pieces4 ⟨2, ![R, 32]⟩ x) h _ 2 (by show (2 : Nat) < 4; omega)
      ⟨2, ![R, 32]⟩ (x 2) rfl rfl 64 rfl (ix2 k j) (hoff _) (by show 64 + j.val = 32 * 2 + j.val; omega)
  | ⟨3, _⟩ =>
    exact concatenate_apply_piece (t := (⟨2, ![R, 128]⟩ : Shape)) (1 : Fin 2) (pieces4 ⟨2, ![R, 32]⟩ x) h _ 3 (by show (3 : Nat) < 4; omega)
      ⟨2, ![R, 32]⟩ (x 3) rfl rfl 96 rfl (ix2 k j) (hoff _) (by show 96 + j.val = 32 * 3 + j.val; omega)

/-- Four vectors of 32 end to end: position `32 g + j` is entry `j` of piece `g`. -/
theorem vec4_apply (x : Fin 4 → ((⟨1, ![32]⟩ : Shape).Idx → α))
    (h : Shape.Concatenates [(⟨1, ![32]⟩ : Shape), ⟨1, ![32]⟩, ⟨1, ![32]⟩, ⟨1, ![32]⟩] (⟨1, ![128]⟩ : Shape) 0)
    (g : Fin 4) (j : Fin 32) :
    concatenate (⟨1, ![128]⟩ : Shape) 0 [⟨⟨1, ![32]⟩, x 0⟩, ⟨⟨1, ![32]⟩, x 1⟩, ⟨⟨1, ![32]⟩, x 2⟩, ⟨⟨1, ![32]⟩, x 3⟩] h
      (ix1 (lane g j)) = x g (ix1 j) := by
  have hoff : ∀ (q : Fin 128) (b : Fin 1), b.cast (rfl : (1 : Nat) = 1) ≠ (0 : Fin 1) →
      ((ix1 j : (⟨1, ![32]⟩ : Shape).Idx) b).val = ((ix1 q : (⟨1, ![128]⟩ : Shape).Idx) (b.cast rfl)).val := by
    intro q b hb
    match b with
    | ⟨0, _⟩ => exact absurd rfl hb
  match g with
  | ⟨0, _⟩ =>
    exact concatenate_apply_piece (t := (⟨1, ![128]⟩ : Shape)) (0 : Fin 1) (pieces4 ⟨1, ![32]⟩ x) h _ 0 (by show (0 : Nat) < 4; omega)
      ⟨1, ![32]⟩ (x 0) rfl rfl 0 rfl (ix1 j) (hoff _) (by show 0 + j.val = 32 * 0 + j.val; omega)
  | ⟨1, _⟩ =>
    exact concatenate_apply_piece (t := (⟨1, ![128]⟩ : Shape)) (0 : Fin 1) (pieces4 ⟨1, ![32]⟩ x) h _ 1 (by show (1 : Nat) < 4; omega)
      ⟨1, ![32]⟩ (x 1) rfl rfl 32 rfl (ix1 j) (hoff _) (by show 32 + j.val = 32 * 1 + j.val; omega)
  | ⟨2, _⟩ =>
    exact concatenate_apply_piece (t := (⟨1, ![128]⟩ : Shape)) (0 : Fin 1) (pieces4 ⟨1, ![32]⟩ x) h _ 2 (by show (2 : Nat) < 4; omega)
      ⟨1, ![32]⟩ (x 2) rfl rfl 64 rfl (ix1 j) (hoff _) (by show 64 + j.val = 32 * 2 + j.val; omega)
  | ⟨3, _⟩ =>
    exact concatenate_apply_piece (t := (⟨1, ![128]⟩ : Shape)) (0 : Fin 1) (pieces4 ⟨1, ![32]⟩ x) h _ 3 (by show (3 : Nat) < 4; omega)
      ⟨1, ![32]⟩ (x 3) rfl rfl 96 rfl (ix1 j) (hoff _) (by show 96 + j.val = 32 * 3 + j.val; omega)

end Concat

/-! ## What the kernel finds in the three host-built arrays -/

section Launch
variable {F : FTy → Type} [FloatOps F]
variable (m : (ℓ : Loc nD τ sig) → Buf (Elt F) ℓ)

/-- The side-by-side input projections at the launch: the four gates' `Wx` concatenated along the columns. -/
theorem wx_cat (c : Dev nD) :
    (StableHlo.after hostOps0 (fun b => m (c, b)) main_v8 : Vec F S8x128 .f32)
      = concatenate S8x128 1 [⟨S8x32, m ((c : Thread nD τ).loc main_arg5)⟩, ⟨S8x32, m ((c : Thread nD τ).loc main_arg11)⟩,
          ⟨S8x32, m ((c : Thread nD τ).loc main_arg17)⟩, ⟨S8x32, m ((c : Thread nD τ).loc main_arg22)⟩]
          concatenates_S8x32_S8x32_S8x32_S8x32_S8x128_d1 := by
  dsimp only [hostOps0]; after_results; rfl

/-- The side-by-side recurrent projections at the launch. -/
theorem wh_cat (c : Dev nD) :
    (StableHlo.after hostOps0 (fun b => m (c, b)) main_v9 : Vec F S32x128 .f32)
      = concatenate S32x128 1 [⟨S32x32, m ((c : Thread nD τ).loc main_arg7)⟩, ⟨S32x32, m ((c : Thread nD τ).loc main_arg13)⟩,
          ⟨S32x32, m ((c : Thread nD τ).loc main_arg19)⟩, ⟨S32x32, m ((c : Thread nD τ).loc main_arg24)⟩]
          concatenates_S32x32_S32x32_S32x32_S32x32_S32x128_d1 := by
  dsimp only [hostOps0]; after_results; rfl

/-- The summed biases end to end at the launch: per gate `(bx + bh) + b`. -/
theorem b_cat (c : Dev nD) :
    (StableHlo.after hostOps0 (fun b => m (c, b)) main_v10 : Vec F S128 .f32)
      = concatenate S128 0
          [⟨S32, addf (addf (m ((c : Thread nD τ).loc main_arg6)) (m ((c : Thread nD τ).loc main_arg8))) (m ((c : Thread nD τ).loc main_arg9))⟩,
           ⟨S32, addf (addf (m ((c : Thread nD τ).loc main_arg12)) (m ((c : Thread nD τ).loc main_arg14))) (m ((c : Thread nD τ).loc main_arg15))⟩,
           ⟨S32, addf (addf (m ((c : Thread nD τ).loc main_arg18)) (m ((c : Thread nD τ).loc main_arg20))) (m ((c : Thread nD τ).loc main_arg21))⟩,
           ⟨S32, addf (addf (m ((c : Thread nD τ).loc main_arg23)) (m ((c : Thread nD τ).loc main_arg25))) (m ((c : Thread nD τ).loc main_arg26))⟩]
          concatenates_S32_S32_S32_S32_S128_d0 := by
  dsimp only [hostOps0]; after_results; rfl

end Launch

end Cert.KernelIdeal.HostArr

end
-- ==== Proof.PayloadPre.lean ====
import Idealize.ShloMosaic.Lib.ValueIdx
import Idealize.ShloMosaic.Lib.ValueLayout
import Idealize.ShloMosaic.Lib.Pipeline.Value
import Idealize.ShloMosaic.PureOps.Ideal.Laws
import proofs.«123048_j70781061038141_1_alg».proof.Proof.Gen.KernelIdeal.Skeleton

noncomputable section

namespace Cert.KernelIdeal.Payload

open Idealize.ShloMosaic Idealize.ShloMosaic.ValueIdx Idealize.SL.Sem Cert.KernelIdeal

/-! # The cell's arithmetic, one entry at a time

Every array operation of the cell is read at one entry (p, q): row p of the block of 2000 rows, column q.
The three products are sums over the one contracted axis; the four gates' pre-activations lie side by side in
one 2000 x 128 array Z = x·Wx + h·Wh + b; a gate is a 32-column window of Z; the peephole and bias vectors are
rows repeated down the block; the non-linear functions act entry by entry. Nothing here depends on what the weight
arrays hold. -/

/-! ## Entry-by-entry functions -/

section Pointwise
variable {s : Shape} {φ : FTy}

/-- The logistic function of an array, at an entry, is the logistic function of the entry. -/
theorem logistic_apply (a : FVec Ideal s φ) (i : s.Idx) : logistic a i = Ideal.logistic (a i) := rfl
/-- The hyperbolic tangent of an array, at an entry, is the hyperbolic tangent of the entry. -/
theorem tanh_apply (a : FVec Ideal s φ) (i : s.Idx) : tanh a i = Ideal.tanh (a i) := rfl

end Pointwise

/-- A vector of n entries, seen as one row and repeated down m rows, reads at (p, c) its entry c. -/
theorem rowBroadcast_apply {α : Type} {m n : ℕ} (x : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ x hc) hb (ix2 p c) = x (ix1 c) :=
  (broadcastTo_1b_ab_apply _ hb p c).trans (shapeCast_a_1a_apply x hc 0 c)

/-! ## The three products

Each product contracts the left factor's columns against the right factor's rows and keeps the left factor's rows
and the right factor's columns. At output entry (i0, i1) and contraction position k the left factor is read at
(i0, k) and the right factor at (k, i1): four coordinate facts per product, one per factor and axis. -/

/-! ### x·Wx : 2000 x 8 times 8 x 128 -/

theorem lhs_x_0 (i : S2000x128.Idx) (q : dot_S2000x8_S8x128_S2000x128_1_0_0_1_n_n.contr.Idx) :
    (dot_S2000x8_S8x128_S2000x128_1_0_0_1_n_n.lhsIdx i q 0).val = (i 0).val := by
  unfold DotDims.lhsIdx
  rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
  rfl
theorem lhs_x_1 (i : S2000x128.Idx) (q : dot_S2000x8_S8x128_S2000x128_1_0_0_1_n_n.contr.Idx) :
    (dot_S2000x8_S8x128_S2000x128_1_0_0_1_n_n.lhsIdx i q 1).val = (q ⟨0, by decide⟩).val :=
  dot_S2000x8_S8x128_S2000x128_1_0_0_1_n_n.lhsIdx_val_of_single rfl i q
theorem rhs_x_0 (i : S2000x128.Idx) (q : dot_S2000x8_S8x128_S2000x128_1_0_0_1_n_n.contr.Idx) :
    (dot_S2000x8_S8x128_S2000x128_1_0_0_1_n_n.rhsIdx i q 0).val = (q ⟨0, by decide⟩).val :=
  dot_S2000x8_S8x128_S2000x128_1_0_0_1_n_n.rhsIdx_val_of_single rfl i q
theorem rhs_x_1 (i : S2000x128.Idx) (q : dot_S2000x8_S8x128_S2000x128_1_0_0_1_n_n.contr.Idx) :
    (dot_S2000x8_S8x128_S2000x128_1_0_0_1_n_n.rhsIdx i q 1).val = (i 1).val := by
  unfold DotDims.rhsIdx
  rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
  rfl

/-- The input product at (p, q): the sum over the 8 features. -/
theorem matmul_x (A : FVec Ideal S2000x8 .bf16) (B : FVec Ideal S8x128 .bf16) (p : Fin 2000) (q : Fin 128) :
    matmul dot_S2000x8_S8x128_S2000x128_1_0_0_1_n_n none A B (constant (F := Ideal) S2000x128 .f32 0x00000000#32) (ix2 p q)
      = ∑ k : Fin 8, A (ix2 p k) * B (ix2 k q) := by
  simp only [matmul]
  rw [Ideal.matmul_constant_zero_apply, ← Equiv.sum_comp (ValueIdx.contrEquiv1 dot_S2000x8_S8x128_S2000x128_1_0_0_1_n_n 8 rfl rfl).symm]
  refine Finset.sum_congr rfl fun k _ => ?_
  have hk := ValueIdx.contrEquiv1_symm_val dot_S2000x8_S8x128_S2000x128_1_0_0_1_n_n 8 rfl rfl k
  have el : dot_S2000x8_S8x128_S2000x128_1_0_0_1_n_n.lhsIdx (ix2 p q) ((ValueIdx.contrEquiv1 dot_S2000x8_S8x128_S2000x128_1_0_0_1_n_n 8 rfl rfl).symm k) = ix2 p k := funext fun a => Fin.ext (by
    match a with
    | ⟨0, _⟩ => exact lhs_x_0 _ _
    | ⟨1, _⟩ => exact (lhs_x_1 _ _).trans hk)
  have er : dot_S2000x8_S8x128_S2000x128_1_0_0_1_n_n.rhsIdx (ix2 p q) ((ValueIdx.contrEquiv1 dot_S2000x8_S8x128_S2000x128_1_0_0_1_n_n 8 rfl rfl).symm k) = ix2 k q := funext fun a => Fin.ext (by
    match a with
    | ⟨0, _⟩ => exact (rhs_x_0 _ _).trans hk
    | ⟨1, _⟩ => exact rhs_x_1 _ _)
  rw [el, er]

/-! ### h·Wh : 2000 x 32 times 32 x 128 -/

theorem lhs_h_0 (i : S2000x128.Idx) (q : dot_S2000x32_S32x128_S2000x128_1_0_0_1_n_n.contr.Idx) :
    (dot_S2000x32_S32x128_S2000x128_1_0_0_1_n_n.lhsIdx i q 0).val = (i 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
theorem lhs_h_1 (i : S2000x128.Idx) (q : dot_S2000x32_S32x128_S2000x128_1_0_0_1_n_n.contr.Idx) :
    (dot_S2000x32_S32x128_S2000x128_1_0_0_1_n_n.lhsIdx i q 1).val = (q ⟨0, by decide⟩).val :=
  dot_S2000x32_S32x128_S2000x128_1_0_0_1_n_n.lhsIdx_val_of_single rfl i q
theorem rhs_h_0 (i : S2000x128.Idx) (q : dot_S2000x32_S32x128_S2000x128_1_0_0_1_n_n.contr.Idx) :
    (dot_S2000x32_S32x128_S2000x128_1_0_0_1_n_n.rhsIdx i q 0).val = (q ⟨0, by decide⟩).val :=
  dot_S2000x32_S32x128_S2000x128_1_0_0_1_n_n.rhsIdx_val_of_single rfl i q
theorem rhs_h_1 (i : S2000x128.Idx) (q : dot_S2000x32_S32x128_S2000x128_1_0_0_1_n_n.contr.Idx) :
    (dot_S2000x32_S32x128_S2000x128_1_0_0_1_n_n.rhsIdx i q 1).val = (i 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl

/-- The recurrent product at (p, q): the sum over the 32 hidden units. -/
theorem matmul_h (A : FVec Ideal S2000x32 .bf16) (B : FVec Ideal S32x128 .bf16) (p : Fin 2000) (q : Fin 128) :
    matmul dot_S2000x32_S32x128_S2000x128_1_0_0_1_n_n none A B (constant (F := Ideal) S2000x128 .f32 0x00000000#32) (ix2 p q)
      = ∑ k : Fin 32, A (ix2 p k) * B (ix2 k q) := by
  simp only [matmul]
  rw [Ideal.matmul_constant_zero_apply, ← Equiv.sum_comp (ValueIdx.contrEquiv1 dot_S2000x32_S32x128_S2000x128_1_0_0_1_n_n 32 rfl rfl).symm]
  refine Finset.sum_congr rfl fun k _ => ?_
  have hk := ValueIdx.contrEquiv1_symm_val dot_S2000x32_S32x128_S2000x128_1_0_0_1_n_n 32 rfl rfl k
  have el : dot_S2000x32_S32x128_S2000x128_1_0_0_1_n_n.lhsIdx (ix2 p q) ((ValueIdx.contrEquiv1 dot_S2000x32_S32x128_S2000x128_1_0_0_1_n_n 32 rfl rfl).symm k) = ix2 p k := funext fun a => Fin.ext (by
    match a with
    | ⟨0, _⟩ => exact lhs_h_0 _ _
    | ⟨1, _⟩ => exact (lhs_h_1 _ _).trans hk)
  have er : dot_S2000x32_S32x128_S2000x128_1_0_0_1_n_n.rhsIdx (ix2 p q) ((ValueIdx.contrEquiv1 dot_S2000x32_S32x128_S2000x128_1_0_0_1_n_n 32 rfl rfl).symm k) = ix2 k q := funext fun a => Fin.ext (by
    match a with
    | ⟨0, _⟩ => exact (rhs_h_0 _ _).trans hk
    | ⟨1, _⟩ => exact rhs_h_1 _ _)
  rw [el, er]

/-! ### The read-out product : 2000 x 32 times 32 x 9 -/

theorem lhs_o_0 (i : S2000x9.Idx) (q : dot_S2000x32_S32x9_S2000x9_1_0_0_1_n_n.contr.Idx) :
    (dot_S2000x32_S32x9_S2000x9_1_0_0_1_n_n.lhsIdx i q 0).val = (i 0).val := by
  unfold DotDims.lhsIdx
  rw [dif_neg (show ¬(0 : Fin S2000x32.rank) ∈ dot_S2000x32_S32x9_S2000x9_1_0_0_1_n_n.lhsBatch by decide), dif_pos (show (0 : Fin S2000x32.rank) ∈ dot_S2000x32_S32x9_S2000x9_1_0_0_1_n_n.lhsNonContracting by decide)]
  rfl
theorem lhs_o_1 (i : S2000x9.Idx) (q : dot_S2000x32_S32x9_S2000x9_1_0_0_1_n_n.contr.Idx) :
    (dot_S2000x32_S32x9_S2000x9_1_0_0_1_n_n.lhsIdx i q 1).val = (q ⟨0, by decide⟩).val :=
  dot_S2000x32_S32x9_S2000x9_1_0_0_1_n_n.lhsIdx_val_of_single rfl i q
theorem rhs_o_0 (i : S2000x9.Idx) (q : dot_S2000x32_S32x9_S2000x9_1_0_0_1_n_n.contr.Idx) :
    (dot_S2000x32_S32x9_S2000x9_1_0_0_1_n_n.rhsIdx i q 0).val = (q ⟨0, by decide⟩).val :=
  dot_S2000x32_S32x9_S2000x9_1_0_0_1_n_n.rhsIdx_val_of_single rfl i q
theorem rhs_o_1 (i : S2000x9.Idx) (q : dot_S2000x32_S32x9_S2000x9_1_0_0_1_n_n.contr.Idx) :
    (dot_S2000x32_S32x9_S2000x9_1_0_0_1_n_n.rhsIdx i q 1).val = (i 1).val := by
  unfold DotDims.rhsIdx
  rw [dif_neg (show ¬(1 : Fin S32x9.rank) ∈ dot_S2000x32_S32x9_S2000x9_1_0_0_1_n_n.rhsBatch by decide), dif_pos (show (1 : Fin S32x9.rank) ∈ dot_S2000x32_S32x9_S2000x9_1_0_0_1_n_n.rhsNonContracting by decide)]
  rfl

/-- The read-out product at (p, n): the sum over the 32 hidden units. -/
theorem matmul_o (A : FVec Ideal S2000x32 .bf16) (B : FVec Ideal S32x9 .bf16) (p : Fin 2000) (n : Fin 9) :
    matmul dot_S2000x32_S32x9_S2000x9_1_0_0_1_n_n none A B (constant (F := Ideal) S2000x9 .f32 0x00000000#32) (ix2 p n)
      = ∑ k : Fin 32, A (ix2 p k) * B (ix2 k n) := by
  simp only [matmul]
  rw [Ideal.matmul_constant_zero_apply, ← Equiv.sum_comp (ValueIdx.contrEquiv1 dot_S2000x32_S32x9_S2000x9_1_0_0_1_n_n 32 rfl rfl).symm]
  refine Finset.sum_congr rfl fun k _ => ?_
  have hk := ValueIdx.contrEquiv1_symm_val dot_S2000x32_S32x9_S2000x9_1_0_0_1_n_n 32 rfl rfl k
  have el : dot_S2000x32_S32x9_S2000x9_1_0_0_1_n_n.lhsIdx (ix2 p n) ((ValueIdx.contrEquiv1 dot_S2000x32_S32x9_S2000x9_1_0_0_1_n_n 32 rfl rfl).symm k) = ix2 p k := funext fun a => Fin.ext (by
    match a with
    | ⟨0, _⟩ => exact lhs_o_0 _ _
    | ⟨1, _⟩ => exact (lhs_o_1 _ _).trans hk)
  have er : dot_S2000x32_S32x9_S2000x9_1_0_0_1_n_n.rhsIdx (ix2 p n) ((ValueIdx.contrEquiv1 dot_S2000x32_S32x9_S2000x9_1_0_0_1_n_n 32 rfl rfl).symm k) = ix2 k n := funext fun a => Fin.ext (by
    match a with
    | ⟨0, _⟩ => exact (rhs_o_0 _ _).trans hk
    | ⟨1, _⟩ => exact rhs_o_1 _ _)
  rw [el, er]

/-! ## The pre-activations Z = x·Wx + h·Wh + b -/

section Cell
variable (v0 : Vec Ideal S2000x8 .f32) (v2 v4 : Vec Ideal S2000x32 .f32) (v5 : Vec Ideal S8x128 .f32)
  (v8 : Vec Ideal S32x128 .f32) (v11 : Vec Ideal S128 .f32) (v13 v14 v15 : Vec Ideal S32 .f32)

/-- Z at (p, q): both projections of row p onto column q, then the bias of column q. Narrowing to the shorter
    format changes no value, and neither does re-reading an array at its own shape. -/
theorem pre_col (p : Fin 2000) (q : Fin 128) :
    Gen.k0_pay5 (F := Ideal) v0 v2 v5 v8 v11 (ix2 p q)
      = ((∑ k : Fin 8, v0 (ix2 p k) * v5 (ix2 k q)) + (∑ k : Fin 32, v2 (ix2 p k) * v8 (ix2 k q))) + v11 (ix1 q) := by
  unfold Gen.k0_pay5
  refine (addf_apply _ _ _).trans ?_
  refine congrArg₂ (· + ·) ((addf_apply _ _ _).trans (congrArg₂ (· + ·) ?_ ?_)) ?_
  · refine (matmul_x _ _ p q).trans (Finset.sum_congr rfl fun k _ => ?_)
    simp only [truncf_apply, shapeCast_self]
  · refine (matmul_h _ _ p q).trans (Finset.sum_congr rfl fun k _ => ?_)
    simp only [truncf_apply, shapeCast_self]
  · refine (rowBroadcast_apply _ _ _ p q).trans ?_
    rw [shapeCast_self]

/-! ## The four gates: 32-column windows of Z

Columns o .. o + 31 of Z, for o = 0, 32, 64, 96: the window's entry (p, j) is Z at (p, k) with k = o + j. -/

/-- The input gate at (p, j): the logistic function of window 0 of Z plus its peephole weight times the old cell
    state. -/
theorem pay7_apply (p : Fin 2000) (j : Fin 32) (k : Fin 128) (hk : k.val = 0 + j.val) :
    Gen.k0_pay7 (F := Ideal) v0 v2 v4 v5 v8 v11 v13 (ix2 p j)
      = Ideal.logistic (Gen.k0_pay5 (F := Ideal) v0 v2 v5 v8 v11 (ix2 p k) + v13 (ix1 j) * v4 (ix2 p j)) := by
  unfold Gen.k0_pay7
  refine (logistic_apply _ _).trans (congrArg Ideal.logistic ?_)
  refine (addf_apply _ _ _).trans (congrArg₂ (· + ·) ?_ ?_)
  · exact slice2_axis1_apply 0 _ _ p j k hk
  · refine (mulf_apply _ _ _).trans (congrArg₂ (· * ·) ?_ rfl)
    exact rowBroadcast_apply v13 _ _ p j

/-- The forget gate at (p, j): the same with window 32 and its own peephole weight. -/
theorem pay8_apply (p : Fin 2000) (j : Fin 32) (k : Fin 128) (hk : k.val = 32 + j.val) :
    Gen.k0_pay8 (F := Ideal) v0 v2 v4 v5 v8 v11 v14 (ix2 p j)
      = Ideal.logistic (Gen.k0_pay5 (F := Ideal) v0 v2 v5 v8 v11 (ix2 p k) + v14 (ix1 j) * v4 (ix2 p j)) := by
  unfold Gen.k0_pay8
  refine (logistic_apply _ _).trans (congrArg Ideal.logistic ?_)
  refine (addf_apply _ _ _).trans (congrArg₂ (· + ·) ?_ ?_)
  · exact slice2_axis1_apply 32 _ _ p j k hk
  · refine (mulf_apply _ _ _).trans (congrArg₂ (· * ·) ?_ rfl)
    exact rowBroadcast_apply v14 _ _ p j

/-- The candidate at (p, j): the hyperbolic tangent of window 64 of Z; no peephole. -/
theorem pay9_apply (p : Fin 2000) (j : Fin 32) (k : Fin 128) (hk : k.val = 64 + j.val) :
    Gen.k0_pay9 (F := Ideal) v0 v2 v5 v8 v11 (ix2 p j)
      = Ideal.tanh (Gen.k0_pay5 (F := Ideal) v0 v2 v5 v8 v11 (ix2 p k)) := by
  unfold Gen.k0_pay9
  refine (tanh_apply _ _).trans (congrArg Ideal.tanh ?_)
  exact slice2_axis1_apply 64 _ _ p j k hk

/-- The output gate's linear part at (p, j): window 96 of Z. -/
theorem pay6_apply (p : Fin 2000) (j : Fin 32) (k : Fin 128) (hk : k.val = 96 + j.val) :
    Gen.k0_pay6 (F := Ideal) v0 v2 v5 v8 v11 (ix2 p j) = Gen.k0_pay5 (F := Ideal) v0 v2 v5 v8 v11 (ix2 p k) := by
  unfold Gen.k0_pay6
  exact slice2_axis1_apply 96 _ _ p j k hk

end Cell

/-! ## The new states and the read-out, from any three gates -/

section States
variable (v4 : Vec Ideal S2000x32 .f32) (v15 : Vec Ideal S32 .f32) (v17 : FVec Ideal S32x9 .bf16) (v18 : Vec Ideal S9 .f32)
  (v28 v33 v38 v39 : FVec Ideal S2000x32 .f32)

/-- The new cell state at an entry: forget gate times old state plus input gate times candidate. -/
theorem pay1_apply (i : S2000x32.Idx) :
    Gen.k0_pay1 (F := Ideal) v4 v33 v38 v39 i = v38 i * v4 i + v33 i * v39 i := rfl

/-- The new hidden state at (p, j): the logistic function of the output gate's linear part plus its peephole weight
    times the NEW cell state, times the hyperbolic tangent of the new cell state. -/
theorem pay2_apply (p : Fin 2000) (j : Fin 32) :
    Gen.k0_pay2 (F := Ideal) v4 v15 v28 v33 v38 v39 (ix2 p j)
      = Ideal.logistic (v28 (ix2 p j) + v15 (ix1 j) * Gen.k0_pay1 (F := Ideal) v4 v33 v38 v39 (ix2 p j))
          * Ideal.tanh (Gen.k0_pay1 (F := Ideal) v4 v33 v38 v39 (ix2 p j)) := by
  unfold Gen.k0_pay2
  refine (mulf_apply _ _ _).trans (congrArg₂ (· * ·) ?_ rfl)
  refine (logistic_apply _ _).trans (congrArg Ideal.logistic ?_)
  refine (addf_apply _ _ _).trans (congrArg₂ (· + ·) rfl ?_)
  refine (mulf_apply _ _ _).trans (congrArg₂ (· * ·) ?_ rfl)
  exact rowBroadcast_apply v15 _ _ p j

/-- The read-out at (p, n): the new hidden state of row p, negative entries replaced by zero, against column n of
    the read-out matrix, plus the read-out bias. The all-zero word is the number zero. -/
theorem pay3_apply (p : Fin 2000) (n : Fin 9) :
    Gen.k0_pay3 (F := Ideal) v4 v15 v17 v18 v28 v33 v38 v39 (ix2 p n)
      = (∑ k : Fin 32, max (Gen.k0_pay2 (F := Ideal) v4 v15 v28 v33 v38 v39 (ix2 p k)) 0 * v17 (ix2 k n)) + v18 (ix1 n) := by
  unfold Gen.k0_pay3
  refine (addf_apply _ _ _).trans (congrArg₂ (· + ·) ?_ ?_)
  · refine (matmul_o _ _ p n).trans (Finset.sum_congr rfl fun k _ => congrArg₂ (· * ·) ?_ rfl)
    refine (truncf_apply (φ := .f32) (ψ := .bf16) _ _ _).trans ((maximumf_apply _ _ _).trans (congrArg₂ max rfl ?_))
    exact Ideal.ofBits_zero_f32
  · exact rowBroadcast_apply v18 _ _ p n

/-- Narrowing the read-out matrix changes no entry. -/
theorem pay4_apply (v16 : Vec Ideal S32x9 .f32) (i : S32x9.Idx) : Gen.k0_pay4 (F := Ideal) v16 i = v16 i := rfl

end States

end Cert.KernelIdeal.Payload
end
-- ==== Proof.Payload.lean ====
import Idealize.ShloMosaic.Lib.ValueIdx
import Idealize.ShloMosaic.Lib.ValueLayout
import Idealize.ShloMosaic.Lib.Pipeline.Value
import Idealize.ShloMosaic.PureOps.Ideal.Laws
import proofs.«123048_j70781061038141_1_alg».proof.Proof.Gen.KernelIdeal.Skeleton
import proofs.«123048_j70781061038141_1_alg».proof.Proof.Spec
import proofs.«123048_j70781061038141_1_alg».proof.Proof.PayloadPre

noncomputable section

namespace Cert.KernelIdeal.Payload

open Idealize.ShloMosaic Idealize.ShloMosaic.ValueIdx Idealize.SL.Sem Cert.KernelIdeal Cert.GateSpec

/-! # The cell's arithmetic against the row functions

The weight arrays hold the four gates side by side: column 32 g + j of the two projection arrays and of the bias
array belongs to hidden unit j of gate g, and the bias array holds each gate's three biases already added. Under
these hypotheses each of the three results, at entry (p, j), is the row function of the specification applied to
rows p of the three batch arrays. The only law used is that six extended reals may be added in any grouping. -/

section
variable (v0 : Vec Ideal S2000x8 .f32) (v2 v4 : Vec Ideal S2000x32 .f32) (v5 : Vec Ideal S8x128 .f32)
  (v8 : Vec Ideal S32x128 .f32) (v11 : Vec Ideal S128 .f32) (v13 v14 v15 : Vec Ideal S32 .f32)
  (v16 : Vec Ideal S32x9 .f32) (v18 : Vec Ideal S9 .f32) (P : Params)

/-- The pre-activation of hidden unit j of gate g in row p: column 32 g + j of Z. -/
theorem pre_apply (g : Fin 4) (p : Fin 2000) (j : Fin 32) :
    Gen.k0_pay5 (F := Ideal) v0 v2 v5 v8 v11 (ix2 p (lane g j))
      = ((∑ k : Fin 8, v0 (ix2 p k) * v5 (ix2 k (lane g j))) + (∑ k : Fin 32, v2 (ix2 p k) * v8 (ix2 k (lane g j))))
          + v11 (ix1 (lane g j)) :=
  pre_col v0 v2 v5 v8 v11 p (lane g j)

/-- The same in the gate's own weights: the two projections of the row, then the three biases added among
    themselves. -/
theorem pre_gate
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (g : Fin 4) (p : Fin 2000) (j : Fin 32) :
    Gen.k0_pay5 (F := Ideal) v0 v2 v5 v8 v11 (ix2 p (lane g j))
      = ((∑ k : Fin 8, rowOf v0 p k * (P.gate g).Wx (ix2 k j)) + (∑ k : Fin 32, rowOf v2 p k * (P.gate g).Wh (ix2 k j)))
          + (((P.gate g).bx (ix1 j) + (P.gate g).bh (ix1 j)) + (P.gate g).b (ix1 j)) := by
  rw [pre_apply, hb g j]
  refine congrArg₂ (· + ·) (congrArg₂ (· + ·) (Finset.sum_congr rfl fun k _ => ?_) (Finset.sum_congr rfl fun k _ => ?_)) rfl
  · rw [hWx g k j]; rfl
  · rw [hWh g k j]; rfl

/-- A gate's argument with a peephole term w: the kernel's grouping equals the specification's, the linear part,
    then w, then the gate's own bias. -/
theorem gate_arg
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (g : Fin 4) (p : Fin 2000) (j : Fin 32) (w : EReal) :
    Gen.k0_pay5 (F := Ideal) v0 v2 v5 v8 v11 (ix2 p (lane g j)) + w
      = lin (P.gate g) (rowOf v0 p) (rowOf v2 p) j + w + (P.gate g).b (ix1 j) := by
  rw [pre_gate v0 v2 v5 v8 v11 P hWx hWh hb g p j, gate_arg_regroup]
  rfl

/-- The same without a peephole term. -/
theorem gate_arg'
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (g : Fin 4) (p : Fin 2000) (j : Fin 32) :
    Gen.k0_pay5 (F := Ideal) v0 v2 v5 v8 v11 (ix2 p (lane g j))
      = lin (P.gate g) (rowOf v0 p) (rowOf v2 p) j + (P.gate g).b (ix1 j) := by
  rw [pre_gate v0 v2 v5 v8 v11 P hWx hWh hb g p j, gate_arg_regroup']
  rfl

/-- The input gate: gate 0, columns 0 to 31, peephole on the old cell state. -/
theorem in_apply
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (hci : ∀ j : Fin 32, v13 (ix1 j) = P.wci (ix1 j))
    (p : Fin 2000) (j : Fin 32) :
    Gen.k0_pay7 (F := Ideal) v0 v2 v4 v5 v8 v11 v13 (ix2 p j) = inGate P (rowOf v0 p) (rowOf v2 p) (rowOf v4 p) j := by
  rw [pay7_apply v0 v2 v4 v5 v8 v11 v13 p j (lane 0 j) rfl, gate_arg v0 v2 v5 v8 v11 P hWx hWh hb 0 p j, hci j]
  rfl

/-- The forget gate: gate 1, columns 32 to 63, peephole on the old cell state. -/
theorem forget_apply
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (hcf : ∀ j : Fin 32, v14 (ix1 j) = P.wcf (ix1 j))
    (p : Fin 2000) (j : Fin 32) :
    Gen.k0_pay8 (F := Ideal) v0 v2 v4 v5 v8 v11 v14 (ix2 p j) = forgetGate P (rowOf v0 p) (rowOf v2 p) (rowOf v4 p) j := by
  rw [pay8_apply v0 v2 v4 v5 v8 v11 v14 p j (lane 1 j) rfl, gate_arg v0 v2 v5 v8 v11 P hWx hWh hb 1 p j, hcf j]
  rfl

/-- The candidate: gate 2, columns 64 to 95, no peephole. -/
theorem cand_apply
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (p : Fin 2000) (j : Fin 32) :
    Gen.k0_pay9 (F := Ideal) v0 v2 v5 v8 v11 (ix2 p j) = candidate P (rowOf v0 p) (rowOf v2 p) j := by
  rw [pay9_apply v0 v2 v5 v8 v11 p j (lane 2 j) rfl, gate_arg' v0 v2 v5 v8 v11 P hWx hWh hb 2 p j]
  rfl

/-- The new cell state: forget gate times old state plus input gate times candidate. -/
theorem cell_apply
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (hci : ∀ j : Fin 32, v13 (ix1 j) = P.wci (ix1 j)) (hcf : ∀ j : Fin 32, v14 (ix1 j) = P.wcf (ix1 j))
    (p : Fin 2000) (j : Fin 32) :
    Gen.k0_pay1 (F := Ideal) v4 (Gen.k0_pay7 v0 v2 v4 v5 v8 v11 v13) (Gen.k0_pay8 v0 v2 v4 v5 v8 v11 v14) (Gen.k0_pay9 v0 v2 v5 v8 v11) (ix2 p j)
      = cellRow P (rowOf v0 p) (rowOf v2 p) (rowOf v4 p) j := by
  refine (pay1_apply v4 _ _ _ (ix2 p j)).trans ?_
  rw [forget_apply v0 v2 v4 v5 v8 v11 v14 P hWx hWh hb hcf p j, in_apply v0 v2 v4 v5 v8 v11 v13 P hWx hWh hb hci p j,
    cand_apply v0 v2 v5 v8 v11 P hWx hWh hb p j]
  rfl

/-- The new hidden state: the output gate (gate 3, columns 96 to 127, peephole on the NEW cell state) times the
    hyperbolic tangent of the new cell state. -/
theorem hidden_apply
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (hci : ∀ j : Fin 32, v13 (ix1 j) = P.wci (ix1 j)) (hcf : ∀ j : Fin 32, v14 (ix1 j) = P.wcf (ix1 j))
    (hco : ∀ j : Fin 32, v15 (ix1 j) = P.wco (ix1 j))
    (p : Fin 2000) (j : Fin 32) :
    Gen.k0_pay2 (F := Ideal) v4 v15 (Gen.k0_pay6 v0 v2 v5 v8 v11) (Gen.k0_pay7 v0 v2 v4 v5 v8 v11 v13) (Gen.k0_pay8 v0 v2 v4 v5 v8 v11 v14) (Gen.k0_pay9 v0 v2 v5 v8 v11) (ix2 p j)
      = hiddenRow P (rowOf v0 p) (rowOf v2 p) (rowOf v4 p) j := by
  refine (pay2_apply v4 v15 _ _ _ _ p j).trans ?_
  rw [cell_apply v0 v2 v4 v5 v8 v11 v13 v14 P hWx hWh hb hci hcf p j, pay6_apply v0 v2 v5 v8 v11 p j (lane 3 j) rfl,
    gate_arg v0 v2 v5 v8 v11 P hWx hWh hb 3 p j, hco j]
  rfl

/-- The read-out: the rectified new hidden state of the row through the read-out matrix, plus its bias. -/
theorem readout_apply
    (hWx : ∀ (g : Fin 4) (k : Fin 8) (j : Fin 32), v5 (ix2 k (lane g j)) = (P.gate g).Wx (ix2 k j))
    (hWh : ∀ (g : Fin 4) (k : Fin 32) (j : Fin 32), v8 (ix2 k (lane g j)) = (P.gate g).Wh (ix2 k j))
    (hb : ∀ (g : Fin 4) (j : Fin 32), v11 (ix1 (lane g j)) = ((P.gate g).bx (ix1 j) + (P.gate g).bh (ix1 j)) + (P.gate g).b (ix1 j))
    (hci : ∀ j : Fin 32, v13 (ix1 j) = P.wci (ix1 j)) (hcf : ∀ j : Fin 32, v14 (ix1 j) = P.wcf (ix1 j))
    (hco : ∀ j : Fin 32, v15 (ix1 j) = P.wco (ix1 j))
    (hWl : ∀ (k : Fin 32) (n : Fin 9), v16 (ix2 k n) = P.Wl (ix2 k n)) (hbl : ∀ n : Fin 9, v18 (ix1 n) = P.bl (ix1 n))
    (p : Fin 2000) (n : Fin 9) :
    Gen.k0_pay3 (F := Ideal) v4 v15 (Gen.k0_pay4 v16) v18 (Gen.k0_pay6 v0 v2 v5 v8 v11) (Gen.k0_pay7 v0 v2 v4 v5 v8 v11 v13) (Gen.k0_pay8 v0 v2 v4 v5 v8 v11 v14) (Gen.k0_pay9 v0 v2 v5 v8 v11) (ix2 p n)
      = readoutRow P (rowOf v0 p) (rowOf v2 p) (rowOf v4 p) n := by
  refine (pay3_apply v4 v15 _ v18 _ _ _ _ p n).trans ?_
  unfold readoutRow
  rw [hbl n]
  refine congrArg₂ (· + ·) (Finset.sum_congr rfl fun k _ => ?_) rfl
  rw [hidden_apply v0 v2 v4 v5 v8 v11 v13 v14 v15 P hWx hWh hb hci hcf hco p k, pay4_apply v16 (ix2 k n), hWl k n]

end

end Cert.KernelIdeal.Payload
end
-- ==== Proof.KernelValue.lean ====
/-
  The idealized kernel's three result arrays as whole-array functions of its arguments.

  The grid has 500 points; point `t` stages rows  2000 t … 2000 t + 1999  of the batch arrays x, h, c and the whole of
  every parameter array, and writes back rows 2000 t … 2000 t + 1999 of the three results.  What it writes back in row
  `p` of the block is the cell of row  2000 t + p  of the batch: the specification's row functions applied to that
  row (the kernel's arithmetic at an index), the parameters being the ones the host laid side by side before the
  launch.  The 500 blocks tile the 1 000 000 rows, so after the run each result array IS the specification's
  whole-array function of the arguments, and the arguments are as they were.
-/
import proofs.«123048_j70781061038141_1_alg».proof.Proof.FrameIdeal
import proofs.«123048_j70781061038141_1_alg».proof.Proof.HostArrays
import proofs.«123048_j70781061038141_1_alg».proof.Proof.Payload
import proofs.«123048_j70781061038141_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.GateSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arguments, named -/

/-- The weights the launch memory holds on core `c`, bundled in argument order. -/
def params (c : Dev nD) : Params :=
  mkParams (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))

/-- The three batch arrays. -/
abbrev xArr (c : Dev nD) : Mat 1000000 8 := m ((c : Thread nD τ).loc main_arg0)
abbrev hArr (c : Dev nD) : Mat 1000000 32 := m ((c : Thread nD τ).loc main_arg3)
abbrev cArr (c : Dev nD) : Mat 1000000 32 := m ((c : Thread nD τ).loc main_arg4)

/-! ## The grid's index maps, decided once -/

theorem hz2 : (![0, 0] : Fin 2 → Nat) = fun _ => 0 := funext fun a => by fin_cases a <;> rfl
theorem hz1 : (![0] : Fin 1 → Nat) = fun _ => 0 := funext fun a => by fin_cases a; rfl

/-- The six row-blocked windows (the batch arrays in, the results out) sit at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The eight parameter windows sit at block 0 at every point: the block is the whole array. -/
theorem idx_params : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 1) = 0 ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Row `p` of block `t` is row `2000 t + p` of the batch. -/
def brow (t : Fin cfg0.N) (p : Fin 2000) : Fin 1000000 := ⟨2000 * t.val + p.val, by have ht : t.val < grid0.N := t.isLt; rw [N_0] at ht; have := p.isLt; omega⟩

/-! ## Reading the staged blocks -/

/-- A row block of a batch array: row `p` of the block at point `t` is row `2000 t + p` of the array. -/
theorem xblk_apply (c : Dev nD) (t : Fin cfg0.N) (p : Fin 2000) (k : Fin 8) :
    (iblk m c 0 t : S2000x8.Idx → EReal) (ix2 p k) = xArr m c (ix2 (brow t p) k) := by
  obtain ⟨e0, e1, -⟩ := idx_rows t
  show V m c main_arg0 (((cfg0.win 0).blk t).view.emb (ix2 p k)) = _
  rw [V_main_arg0]
  refine congrArg _ ?_
  funext a; apply Fin.ext
  match a with
  | ⟨0, _⟩ => show win0_0.index t (0 : Fin 2) * 2000 + 1 * p.val = 2000 * t.val + p.val; omega
  | ⟨1, _⟩ => show win0_0.index t (1 : Fin 2) * 8 + 1 * k.val = k.val; omega

theorem hblk_apply (c : Dev nD) (t : Fin cfg0.N) (p : Fin 2000) (k : Fin 32) :
    (iblk m c 1 t : S2000x32.Idx → EReal) (ix2 p k) = hArr m c (ix2 (brow t p) k) := by
  obtain ⟨-, -, e0, e1, -⟩ := idx_rows t
  show V m c main_arg3 (((cfg0.win 1).blk t).view.emb (ix2 p k)) = _
  rw [V_main_arg3]
  refine congrArg _ ?_
  funext a; apply Fin.ext
  match a with
  | ⟨0, _⟩ => show win0_1.index t (0 : Fin 2) * 2000 + 1 * p.val = 2000 * t.val + p.val; omega
  | ⟨1, _⟩ => show win0_1.index t (1 : Fin 2) * 32 + 1 * k.val = k.val; omega

theorem cblk_apply (c : Dev nD) (t : Fin cfg0.N) (p : Fin 2000) (k : Fin 32) :
    (iblk m c 2 t : S2000x32.Idx → EReal) (ix2 p k) = cArr m c (ix2 (brow t p) k) := by
  obtain ⟨-, -, -, -, e0, e1, -⟩ := idx_rows t
  show V m c main_arg4 (((cfg0.win 2).blk t).view.emb (ix2 p k)) = _
  rw [V_main_arg4]
  refine congrArg _ ?_
  funext a; apply Fin.ext
  match a with
  | ⟨0, _⟩ => show win0_2.index t (0 : Fin 2) * 2000 + 1 * p.val = 2000 * t.val + p.val; omega
  | ⟨1, _⟩ => show win0_2.index t (1 : Fin 2) * 32 + 1 * k.val = k.val; omega

/-! ## The parameter windows: the whole array at every point -/

/-- A whole-array block of a rank-two parameter array reads the array itself. -/
theorem wxblk_apply (c : Dev nD) (t : Fin cfg0.N) (k : Fin 8) (q : Fin 128) :
    (iblk m c 3 t : S8x128.Idx → EReal) (ix2 k q) = (V m c main_v8 : S8x128.Idx → EReal) (ix2 k q) := by
  obtain ⟨e0, e1, -⟩ := idx_params t
  show V m c main_v8 (((cfg0.win 3).blk t).view.emb (ix2 k q)) = _
  refine congrArg _ ?_
  funext a; apply Fin.ext
  match a with
  | ⟨0, _⟩ => show win0_3.index t (0 : Fin 2) * 8 + 1 * k.val = k.val; omega
  | ⟨1, _⟩ => show win0_3.index t (1 : Fin 2) * 128 + 1 * q.val = q.val; omega

theorem whblk_apply (c : Dev nD) (t : Fin cfg0.N) (k : Fin 32) (q : Fin 128) :
    (iblk m c 4 t : S32x128.Idx → EReal) (ix2 k q) = (V m c main_v9 : S32x128.Idx → EReal) (ix2 k q) := by
  obtain ⟨-, -, e0, e1, -⟩ := idx_params t
  show V m c main_v9 (((cfg0.win 4).blk t).view.emb (ix2 k q)) = _
  refine congrArg _ ?_
  funext a; apply Fin.ext
  match a with
  | ⟨0, _⟩ => show win0_4.index t (0 : Fin 2) * 32 + 1 * k.val = k.val; omega
  | ⟨1, _⟩ => show win0_4.index t (1 : Fin 2) * 128 + 1 * q.val = q.val; omega

theorem bblk_apply (c : Dev nD) (t : Fin cfg0.N) (q : Fin 128) :
    (iblk m c 5 t : S128.Idx → EReal) (ix1 q) = (V m c main_v10 : S128.Idx → EReal) (ix1 q) := by
  obtain ⟨-, -, -, -, e0, -⟩ := idx_params t
  show V m c main_v10 (((cfg0.win 5).blk t).view.emb (ix1 q)) = _
  refine congrArg _ ?_
  funext a; apply Fin.ext
  match a with
  | ⟨0, _⟩ => show win0_5.index t (0 : Fin 1) * 128 + 1 * q.val = q.val; omega

theorem wciblk_apply (c : Dev nD) (t : Fin cfg0.N) (j : Fin 32) :
    (iblk m c 6 t : S32.Idx → EReal) (ix1 j) = (m ((c : Thread nD τ).loc main_arg10) : S32.Idx → EReal) (ix1 j) := by
  obtain ⟨-, -, -, -, -, e0, -⟩ := idx_params t
  show V m c main_arg10 (((cfg0.win 6).blk t).view.emb (ix1 j)) = _
  rw [V_main_arg10]
  refine congrArg _ ?_
  funext a; apply Fin.ext
  match a with
  | ⟨0, _⟩ => show win0_6.index t (0 : Fin 1) * 32 + 1 * j.val = j.val; omega

theorem wcfblk_apply (c : Dev nD) (t : Fin cfg0.N) (j : Fin 32) :
    (iblk m c 7 t : S32.Idx → EReal) (ix1 j) = (m ((c : Thread nD τ).loc main_arg16) : S32.Idx → EReal) (ix1 j) := by
  obtain ⟨-, -, -, -, -, -, e0, -⟩ := idx_params t
  show V m c main_arg16 (((cfg0.win 7).blk t).view.emb (ix1 j)) = _
  rw [V_main_arg16]
  refine congrArg _ ?_
  funext a; apply Fin.ext
  match a with
  | ⟨0, _⟩ => show win0_7.index t (0 : Fin 1) * 32 + 1 * j.val = j.val; omega

theorem wcoblk_apply (c : Dev nD) (t : Fin cfg0.N) (j : Fin 32) :
    (iblk m c 8 t : S32.Idx → EReal) (ix1 j) = (m ((c : Thread nD τ).loc main_arg27) : S32.Idx → EReal) (ix1 j) := by
  obtain ⟨-, -, -, -, -, -, -, e0, -⟩ := idx_params t
  show V m c main_arg27 (((cfg0.win 8).blk t).view.emb (ix1 j)) = _
  rw [V_main_arg27]
  refine congrArg _ ?_
  funext a; apply Fin.ext
  match a with
  | ⟨0, _⟩ => show win0_8.index t (0 : Fin 1) * 32 + 1 * j.val = j.val; omega

theorem wlblk_apply (c : Dev nD) (t : Fin cfg0.N) (k : Fin 32) (n : Fin 9) :
    (iblk m c 9 t : S32x9.Idx → EReal) (ix2 k n) = (m ((c : Thread nD τ).loc main_arg28) : S32x9.Idx → EReal) (ix2 k n) := by
  obtain ⟨-, -, -, -, -, -, -, -, e0, e1, -⟩ := idx_params t
  show V m c main_arg28 (((cfg0.win 9).blk t).view.emb (ix2 k n)) = _
  rw [V_main_arg28]
  refine congrArg _ ?_
  funext a; apply Fin.ext
  match a with
  | ⟨0, _⟩ => show win0_9.index t (0 : Fin 2) * 32 + 1 * k.val = k.val; omega
  | ⟨1, _⟩ => show win0_9.index t (1 : Fin 2) * 9 + 1 * n.val = n.val; omega

theorem blblk_apply (c : Dev nD) (t : Fin cfg0.N) (n : Fin 9) :
    (iblk m c 10 t : S9.Idx → EReal) (ix1 n) = (m ((c : Thread nD τ).loc main_arg29) : S9.Idx → EReal) (ix1 n) := by
  obtain ⟨-, -, -, -, -, -, -, -, -, -, e0⟩ := idx_params t
  show V m c main_arg29 (((cfg0.win 10).blk t).view.emb (ix1 n)) = _
  rw [V_main_arg29]
  refine congrArg _ ?_
  funext a; apply Fin.ext
  match a with
  | ⟨0, _⟩ => show win0_10.index t (0 : Fin 1) * 9 + 1 * n.val = n.val; omega

/-! ## The parameter blocks hold the bundled parameters -/

/-- Gate `g`'s input projection sits in columns `32 g …` of the side-by-side array. -/
theorem hWx (c : Dev nD) (t : Fin cfg0.N) (g : Fin 4) (k : Fin 8) (j : Fin 32) :
    (iblk m c 3 t : S8x128.Idx → EReal) (ix2 k (lane g j)) = ((params m c).gate g).Wx (ix2 k j) := by
  rw [wxblk_apply, show (V m c main_v8 : S8x128.Idx → EReal) = _ from HostArr.wx_cat m c]
  refine (HostArr.cols4_apply (R := 8) (fun g => match g with
      | ⟨0, _⟩ => (m ((c : Thread nD τ).loc main_arg5) : S8x32.Idx → EReal)
      | ⟨1, _⟩ => m ((c : Thread nD τ).loc main_arg11)
      | ⟨2, _⟩ => m ((c : Thread nD τ).loc main_arg17)
      | ⟨3, _⟩ => m ((c : Thread nD τ).loc main_arg22)
      | ⟨_ + 4, h⟩ => absurd h (by omega)) _ g k j).trans ?_
  match g with
  | ⟨0, _⟩ => rfl
  | ⟨1, _⟩ => rfl
  | ⟨2, _⟩ => rfl
  | ⟨3, _⟩ => rfl

theorem hWh (c : Dev nD) (t : Fin cfg0.N) (g : Fin 4) (k : Fin 32) (j : Fin 32) :
    (iblk m c 4 t : S32x128.Idx → EReal) (ix2 k (lane g j)) = ((params m c).gate g).Wh (ix2 k j) := by
  rw [whblk_apply, show (V m c main_v9 : S32x128.Idx → EReal) = _ from HostArr.wh_cat m c]
  refine (HostArr.cols4_apply (R := 32) (fun g => match g with
      | ⟨0, _⟩ => (m ((c : Thread nD τ).loc main_arg7) : S32x32.Idx → EReal)
      | ⟨1, _⟩ => m ((c : Thread nD τ).loc main_arg13)
      | ⟨2, _⟩ => m ((c : Thread nD τ).loc main_arg19)
      | ⟨3, _⟩ => m ((c : Thread nD τ).loc main_arg24)
      | ⟨_ + 4, h⟩ => absurd h (by omega)) _ g k j).trans ?_
  match g with
  | ⟨0, _⟩ => rfl
  | ⟨1, _⟩ => rfl
  | ⟨2, _⟩ => rfl
  | ⟨3, _⟩ => rfl

theorem hb (c : Dev nD) (t : Fin cfg0.N) (g : Fin 4) (j : Fin 32) :
    (iblk m c 5 t : S128.Idx → EReal) (ix1 (lane g j))
      = (((params m c).gate g).bx (ix1 j) + ((params m c).gate g).bh (ix1 j)) + ((params m c).gate g).b (ix1 j) := by
  rw [bblk_apply, show (V m c main_v10 : S128.Idx → EReal) = _ from HostArr.b_cat m c]
  refine (HostArr.vec4_apply (fun g => match g with
      | ⟨0, _⟩ => (addf (F := Ideal) (addf (F := Ideal) (m ((c : Thread nD τ).loc main_arg6)) (m ((c : Thread nD τ).loc main_arg8))) (m ((c : Thread nD τ).loc main_arg9)) : S32.Idx → EReal)
      | ⟨1, _⟩ => addf (F := Ideal) (addf (F := Ideal) (m ((c : Thread nD τ).loc main_arg12)) (m ((c : Thread nD τ).loc main_arg14))) (m ((c : Thread nD τ).loc main_arg15))
      | ⟨2, _⟩ => addf (F := Ideal) (addf (F := Ideal) (m ((c : Thread nD τ).loc main_arg18)) (m ((c : Thread nD τ).loc main_arg20))) (m ((c : Thread nD τ).loc main_arg21))
      | ⟨3, _⟩ => addf (F := Ideal) (addf (F := Ideal) (m ((c : Thread nD τ).loc main_arg23)) (m ((c : Thread nD τ).loc main_arg25))) (m ((c : Thread nD τ).loc main_arg26))
      | ⟨_ + 4, h⟩ => absurd h (by omega)) _ g j).trans ?_
  match g with
  | ⟨0, _⟩ => rfl
  | ⟨1, _⟩ => rfl
  | ⟨2, _⟩ => rfl
  | ⟨3, _⟩ => rfl

/-! ## The new cell state (result window 13) -/

/-- Entry `y` of what point `t` computes for the cell state is the specification's cell of batch row
    `2000 t + y 0`, hidden unit `y 1`. -/
theorem cell_block (c : Dev nD) (t : Fin cfg0.N) (y : S2000x32.Idx) :
    k0_pay1 (F := Ideal) (iblk m c 2 t)
        (k0_pay7 (iblk m c 0 t) (iblk m c 1 t) (iblk m c 2 t) (iblk m c 3 t) (iblk m c 4 t) (iblk m c 5 t) (iblk m c 6 t))
        (k0_pay8 (iblk m c 0 t) (iblk m c 1 t) (iblk m c 2 t) (iblk m c 3 t) (iblk m c 4 t) (iblk m c 5 t) (iblk m c 7 t))
        (k0_pay9 (iblk m c 0 t) (iblk m c 1 t) (iblk m c 3 t) (iblk m c 4 t) (iblk m c 5 t)) y
      = cellArr (params m c) (xArr m c) (hArr m c) (cArr m c) (ix2 (brow t (y 0)) (y 1)) := by
  obtain ⟨p, j, rfl⟩ : ∃ (p : Fin 2000) (j : Fin 32), y = ix2 p j := ⟨y 0, y 1, eq_ix2 y⟩
  refine (Payload.cell_apply (iblk m c 0 t) (iblk m c 1 t) (iblk m c 2 t) (iblk m c 3 t) (iblk m c 4 t) (iblk m c 5 t)
    (iblk m c 6 t) (iblk m c 7 t) (params m c) (hWx m c t) (hWh m c t) (hb m c t)
    (fun j => wciblk_apply m c t j) (fun j => wcfblk_apply m c t j) p j).trans ?_
  have ex : rowOf (iblk m c 0 t : Mat 2000 8) p = rowOf (xArr m c) (brow t p) := funext fun k => xblk_apply m c t p k
  have eh : rowOf (iblk m c 1 t : Mat 2000 32) p = rowOf (hArr m c) (brow t p) := funext fun k => hblk_apply m c t p k
  have ec : rowOf (iblk m c 2 t : Mat 2000 32) p = rowOf (cArr m c) (brow t p) := funext fun k => cblk_apply m c t p k
  show cellRow (params m c) (rowOf (iblk m c 0 t : Mat 2000 8) p) (rowOf (iblk m c 1 t : Mat 2000 32) p) (rowOf (iblk m c 2 t : Mat 2000 32) p) j
    = cellRow (params m c) (rowOf (xArr m c) (brow t p)) (rowOf (hArr m c) (brow t p)) (rowOf (cArr m c) (brow t p)) j
  rw [ex, eh, ec]

/-- What point `t` writes back to the cell-state array is block `t` of the specification's array. -/
theorem flushed13_eq (c : Dev nD) (t : Fin cfg0.N) :
    (dats m 0 c).flushed 13 t
      = ((cfg0.win 13).blk t).view.read (Elt Ideal) (cellArr (params m c) (xArr m c) (hArr m c) (cArr m c)) := by
  show (cfg0.win 13).cut (grid0.coords t) ((dats m 0 c).after 13 t) = _
  rw [after0_13]
  unfold out0_13
  rw [View.canon_unit_zero hz2]
  simp only [View.ld_unit_zero (S := S2000x8) hz2, View.ld_unit_zero (S := S2000x32) hz2, View.ld_unit_zero (S := S8x128) hz2,
    View.ld_unit_zero (S := S32x128) hz2, View.ld_unit_zero (S := S128) hz1, View.ld_unit_zero (S := S32) hz1]
  obtain ⟨-, -, -, -, -, -, -, -, -, -, e0, e1⟩ := idx_rows t
  funext y
  refine (cell_block m c t y).trans ?_
  show cellArr (params m c) (xArr m c) (hArr m c) (cArr m c) (ix2 (brow t (y 0)) (y 1))
    = cellArr (params m c) (xArr m c) (hArr m c) (cArr m c) (((cfg0.win 13).blk t).view.emb y)
  refine congrArg _ ?_
  funext a; apply Fin.ext
  match a with
  | ⟨0, _⟩ => show 2000 * t.val + (y 0).val = win0_13.index t (0 : Fin 2) * 2000 + 1 * (y 0).val; omega
  | ⟨1, _⟩ => show (y 1).val = win0_13.index t (1 : Fin 2) * 32 + 1 * (y 1).val; omega

/-- An index of the cell-state array lies in point `t`'s block iff each coordinate lies in the block's range. -/
theorem mem_blk13 (t : Fin cfg0.N) (i : S1000000x32.Idx) :
    i ∈ ((cfg0.win 13).blk t).view.set ↔ ∀ a : Fin 2, win0_13.index t a * S2000x32.size a ≤ (i a).val
      ∧ (i a).val < win0_13.index t a * S2000x32.size a + S2000x32.size a := by
  show i ∈ ((View.whole main_v11_2).slice (win0_13.rect t)).set ↔ _
  rw [View.set_slice_whole, Rect.mem_set_unit]
  exact Iff.rfl

/-- Every row of the batch is in some point's block: row `r` in the block of point `r / 2000`. -/
theorem cover13 (i : S1000000x32.Idx) :
    ∃ t : Fin cfg0.N, (cfg0.win 13).flush t = true ∧ i ∈ ((cfg0.win 13).blk t).view.set := by
  have hi0 : (i 0).val < 1000000 := (i 0).isLt
  have hi1 : (i 1).val < 32 := (i 1).isLt
  have hN : (i 0).val / 2000 < grid0.N := by rw [N_0]; omega
  obtain ⟨-, -, -, -, -, -, -, -, -, -, e0, e1⟩ := idx_rows ⟨(i 0).val / 2000, hN⟩
  refine ⟨⟨(i 0).val / 2000, hN⟩, flush0_13 _, ?_⟩
  rw [mem_blk13]
  intro a
  match a with
  | ⟨0, _⟩ =>
    show win0_13.index ⟨(i 0).val / 2000, hN⟩ (0 : Fin 2) * 2000 ≤ (i 0).val
      ∧ (i 0).val < win0_13.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_13.index ⟨(i 0).val / 2000, hN⟩ (1 : Fin 2) * 32 ≤ (i 1).val
      ∧ (i 1).val < win0_13.index ⟨(i 0).val / 2000, hN⟩ (1 : Fin 2) * 32 + 32
    rw [e1]; omega

/-- After the run the cell-state array is the specification's array. -/
theorem final13 (c : Dev nD) :
    (dats m 0 c).arrAt 13 cfg0.N = cellArr (params m c) (xArr m c) (hArr m c) (cArr m c) :=
  (dats m 0 c).arrAt_eq_of_cover 13 _ (fun t _ => flushed13_eq m c t) cover13

/-! ## The new hidden state (result window 12) -/

/-- Entry `y` of what point `t` computes for the hidden state is the specification's hidden state of batch row
    `2000 t + y 0`, hidden unit `y 1`. -/
theorem hidden_block (c : Dev nD) (t : Fin cfg0.N) (y : S2000x32.Idx) :
    k0_pay2 (F := Ideal) (iblk m c 2 t) (iblk m c 8 t)
        (k0_pay6 (iblk m c 0 t) (iblk m c 1 t) (iblk m c 3 t) (iblk m c 4 t) (iblk m c 5 t))
        (k0_pay7 (iblk m c 0 t) (iblk m c 1 t) (iblk m c 2 t) (iblk m c 3 t) (iblk m c 4 t) (iblk m c 5 t) (iblk m c 6 t))
        (k0_pay8 (iblk m c 0 t) (iblk m c 1 t) (iblk m c 2 t) (iblk m c 3 t) (iblk m c 4 t) (iblk m c 5 t) (iblk m c 7 t))
        (k0_pay9 (iblk m c 0 t) (iblk m c 1 t) (iblk m c 3 t) (iblk m c 4 t) (iblk m c 5 t)) y
      = hiddenArr (params m c) (xArr m c) (hArr m c) (cArr m c) (ix2 (brow t (y 0)) (y 1)) := by
  obtain ⟨p, j, rfl⟩ : ∃ (p : Fin 2000) (j : Fin 32), y = ix2 p j := ⟨y 0, y 1, eq_ix2 y⟩
  refine (Payload.hidden_apply (iblk m c 0 t) (iblk m c 1 t) (iblk m c 2 t) (iblk m c 3 t) (iblk m c 4 t) (iblk m c 5 t)
    (iblk m c 6 t) (iblk m c 7 t) (iblk m c 8 t) (params m c) (hWx m c t) (hWh m c t) (hb m c t)
    (fun j => wciblk_apply m c t j) (fun j => wcfblk_apply m c t j) (fun j => wcoblk_apply m c t j) p j).trans ?_
  have ex : rowOf (iblk m c 0 t : Mat 2000 8) p = rowOf (xArr m c) (brow t p) := funext fun k => xblk_apply m c t p k
  have eh : rowOf (iblk m c 1 t : Mat 2000 32) p = rowOf (hArr m c) (brow t p) := funext fun k => hblk_apply m c t p k
  have ec : rowOf (iblk m c 2 t : Mat 2000 32) p = rowOf (cArr m c) (brow t p) := funext fun k => cblk_apply m c t p k
  show hiddenRow (params m c) (rowOf (iblk m c 0 t : Mat 2000 8) p) (rowOf (iblk m c 1 t : Mat 2000 32) p) (rowOf (iblk m c 2 t : Mat 2000 32) p) j
    = hiddenRow (params m c) (rowOf (xArr m c) (brow t p)) (rowOf (hArr m c) (brow t p)) (rowOf (cArr m c) (brow t p)) j
  rw [ex, eh, ec]

/-- What point `t` writes back to the hidden-state array is block `t` of the specification's array. -/
theorem flushed12_eq (c : Dev nD) (t : Fin cfg0.N) :
    (dats m 0 c).flushed 12 t
      = ((cfg0.win 12).blk t).view.read (Elt Ideal) (hiddenArr (params m c) (xArr m c) (hArr m c) (cArr m c)) := by
  show (cfg0.win 12).cut (grid0.coords t) ((dats m 0 c).after 12 t) = _
  rw [after0_12]
  unfold out0_12
  rw [View.canon_unit_zero hz2]
  simp only [View.ld_unit_zero (S := S2000x8) hz2, View.ld_unit_zero (S := S2000x32) hz2, View.ld_unit_zero (S := S8x128) hz2,
    View.ld_unit_zero (S := S32x128) hz2, View.ld_unit_zero (S := S128) hz1, View.ld_unit_zero (S := S32) hz1]
  obtain ⟨-, -, -, -, -, -, -, -, e0, e1, -⟩ := idx_rows t
  funext y
  refine (hidden_block m c t y).trans ?_
  show hiddenArr (params m c) (xArr m c) (hArr m c) (cArr m c) (ix2 (brow t (y 0)) (y 1))
    = hiddenArr (params m c) (xArr m c) (hArr m c) (cArr m c) (((cfg0.win 12).blk t).view.emb y)
  refine congrArg _ ?_
  funext a; apply Fin.ext
  match a with
  | ⟨0, _⟩ => show 2000 * t.val + (y 0).val = win0_12.index t (0 : Fin 2) * 2000 + 1 * (y 0).val; omega
  | ⟨1, _⟩ => show (y 1).val = win0_12.index t (1 : Fin 2) * 32 + 1 * (y 1).val; omega

theorem mem_blk12 (t : Fin cfg0.N) (i : S1000000x32.Idx) :
    i ∈ ((cfg0.win 12).blk t).view.set ↔ ∀ a : Fin 2, win0_12.index t a * S2000x32.size a ≤ (i a).val
      ∧ (i a).val < win0_12.index t a * S2000x32.size a + S2000x32.size a := by
  show i ∈ ((View.whole main_v11_1).slice (win0_12.rect t)).set ↔ _
  rw [View.set_slice_whole, Rect.mem_set_unit]
  exact Iff.rfl

theorem cover12 (i : S1000000x32.Idx) :
    ∃ t : Fin cfg0.N, (cfg0.win 12).flush t = true ∧ i ∈ ((cfg0.win 12).blk t).view.set := by
  have hi0 : (i 0).val < 1000000 := (i 0).isLt
  have hi1 : (i 1).val < 32 := (i 1).isLt
  have hN : (i 0).val / 2000 < grid0.N := by rw [N_0]; omega
  obtain ⟨-, -, -, -, -, -, -, -, e0, e1, -⟩ := idx_rows ⟨(i 0).val / 2000, hN⟩
  refine ⟨⟨(i 0).val / 2000, hN⟩, flush0_12 _, ?_⟩
  rw [mem_blk12]
  intro a
  match a with
  | ⟨0, _⟩ =>
    show win0_12.index ⟨(i 0).val / 2000, hN⟩ (0 : Fin 2) * 2000 ≤ (i 0).val
      ∧ (i 0).val < win0_12.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_12.index ⟨(i 0).val / 2000, hN⟩ (1 : Fin 2) * 32 ≤ (i 1).val
      ∧ (i 1).val < win0_12.index ⟨(i 0).val / 2000, hN⟩ (1 : Fin 2) * 32 + 32
    rw [e1]; omega

/-- After the run the hidden-state array is the specification's array. -/
theorem final12 (c : Dev nD) :
    (dats m 0 c).arrAt 12 cfg0.N = hiddenArr (params m c) (xArr m c) (hArr m c) (cArr m c) :=
  (dats m 0 c).arrAt_eq_of_cover 12 _ (fun t _ => flushed12_eq m c t) cover12

/-! ## The read-out (result window 11) -/

/-- Entry `y` of what point `t` computes for the read-out is the specification's read-out of batch row
    `2000 t + y 0`, output `y 1`. -/
theorem readout_block (c : Dev nD) (t : Fin cfg0.N) (y : S2000x9.Idx) :
    k0_pay3 (F := Ideal) (iblk m c 2 t) (iblk m c 8 t) (k0_pay4 (iblk m c 9 t)) (iblk m c 10 t)
        (k0_pay6 (iblk m c 0 t) (iblk m c 1 t) (iblk m c 3 t) (iblk m c 4 t) (iblk m c 5 t))
        (k0_pay7 (iblk m c 0 t) (iblk m c 1 t) (iblk m c 2 t) (iblk m c 3 t) (iblk m c 4 t) (iblk m c 5 t) (iblk m c 6 t))
        (k0_pay8 (iblk m c 0 t) (iblk m c 1 t) (iblk m c 2 t) (iblk m c 3 t) (iblk m c 4 t) (iblk m c 5 t) (iblk m c 7 t))
        (k0_pay9 (iblk m c 0 t) (iblk m c 1 t) (iblk m c 3 t) (iblk m c 4 t) (iblk m c 5 t)) y
      = readoutArr (params m c) (xArr m c) (hArr m c) (cArr m c) (ix2 (brow t (y 0)) (y 1)) := by
  obtain ⟨p, n, rfl⟩ : ∃ (p : Fin 2000) (n : Fin 9), y = ix2 p n := ⟨y 0, y 1, eq_ix2 y⟩
  refine (Payload.readout_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (params m c) (hWx m c t) (hWh m c t) (hb m c t)
    (fun j => wciblk_apply m c t j) (fun j => wcfblk_apply m c t j) (fun j => wcoblk_apply m c t j)
    (fun k n => wlblk_apply m c t k n) (fun n => blblk_apply m c t n) p n).trans ?_
  have ex : rowOf (iblk m c 0 t : Mat 2000 8) p = rowOf (xArr m c) (brow t p) := funext fun k => xblk_apply m c t p k
  have eh : rowOf (iblk m c 1 t : Mat 2000 32) p = rowOf (hArr m c) (brow t p) := funext fun k => hblk_apply m c t p k
  have ec : rowOf (iblk m c 2 t : Mat 2000 32) p = rowOf (cArr m c) (brow t p) := funext fun k => cblk_apply m c t p k
  show readoutRow (params m c) (rowOf (iblk m c 0 t : Mat 2000 8) p) (rowOf (iblk m c 1 t : Mat 2000 32) p) (rowOf (iblk m c 2 t : Mat 2000 32) p) n
    = readoutRow (params m c) (rowOf (xArr m c) (brow t p)) (rowOf (hArr m c) (brow t p)) (rowOf (cArr m c) (brow t p)) n
  rw [ex, eh, ec]

/-- What point `t` writes back to the read-out array is block `t` of the specification's array. -/
theorem flushed11_eq (c : Dev nD) (t : Fin cfg0.N) :
    (dats m 0 c).flushed 11 t
      = ((cfg0.win 11).blk t).view.read (Elt Ideal) (readoutArr (params m c) (xArr m c) (hArr m c) (cArr m c)) := by
  show (cfg0.win 11).cut (grid0.coords t) ((dats m 0 c).after 11 t) = _
  rw [after0_11]
  unfold out0_11
  rw [View.canon_unit_zero hz2]
  simp only [View.ld_unit_zero (S := S2000x8) hz2, View.ld_unit_zero (S := S2000x32) hz2, View.ld_unit_zero (S := S8x128) hz2,
    View.ld_unit_zero (S := S32x128) hz2, View.ld_unit_zero (S := S128) hz1, View.ld_unit_zero (S := S32) hz1,
    View.ld_unit_zero (S := S32x9) hz2, View.ld_unit_zero (S := S9) hz1]
  obtain ⟨-, -, -, -, -, -, e0, e1, -⟩ := idx_rows t
  funext y
  refine (readout_block m c t y).trans ?_
  show readoutArr (params m c) (xArr m c) (hArr m c) (cArr m c) (ix2 (brow t (y 0)) (y 1))
    = readoutArr (params m c) (xArr m c) (hArr m c) (cArr m c) (((cfg0.win 11).blk t).view.emb y)
  refine congrArg _ ?_
  funext a; apply Fin.ext
  match a with
  | ⟨0, _⟩ => show 2000 * t.val + (y 0).val = win0_11.index t (0 : Fin 2) * 2000 + 1 * (y 0).val; omega
  | ⟨1, _⟩ => show (y 1).val = win0_11.index t (1 : Fin 2) * 9 + 1 * (y 1).val; omega

theorem mem_blk11 (t : Fin cfg0.N) (i : S1000000x9.Idx) :
    i ∈ ((cfg0.win 11).blk t).view.set ↔ ∀ a : Fin 2, win0_11.index t a * S2000x9.size a ≤ (i a).val
      ∧ (i a).val < win0_11.index t a * S2000x9.size a + S2000x9.size a := by
  show i ∈ ((View.whole main_v11_0).slice (win0_11.rect t)).set ↔ _
  rw [View.set_slice_whole, Rect.mem_set_unit]
  exact Iff.rfl

theorem cover11 (i : S1000000x9.Idx) :
    ∃ t : Fin cfg0.N, (cfg0.win 11).flush t = true ∧ i ∈ ((cfg0.win 11).blk t).view.set := by
  have hi0 : (i 0).val < 1000000 := (i 0).isLt
  have hi1 : (i 1).val < 9 := (i 1).isLt
  have hN : (i 0).val / 2000 < grid0.N := by rw [N_0]; omega
  obtain ⟨-, -, -, -, -, -, e0, e1, -⟩ := idx_rows ⟨(i 0).val / 2000, hN⟩
  refine ⟨⟨(i 0).val / 2000, hN⟩, flush0_11 _, ?_⟩
  rw [mem_blk11]
  intro a
  match a with
  | ⟨0, _⟩ =>
    show win0_11.index ⟨(i 0).val / 2000, hN⟩ (0 : Fin 2) * 2000 ≤ (i 0).val
      ∧ (i 0).val < win0_11.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_11.index ⟨(i 0).val / 2000, hN⟩ (1 : Fin 2) * 9 ≤ (i 1).val
      ∧ (i 1).val < win0_11.index ⟨(i 0).val / 2000, hN⟩ (1 : Fin 2) * 9 + 9
    rw [e1]; omega

/-- After the run the read-out array is the specification's array. -/
theorem final11 (c : Dev nD) :
    (dats m 0 c).arrAt 11 cfg0.N = readoutArr (params m c) (xArr m c) (hArr m c) (cArr m c) :=
  (dats m 0 c).arrAt_eq_of_cover 11 _ (fun t _ => flushed11_eq m c t) cover11

/-! ## The run, read -/

/-- After the frame run the three result arrays are what the library computes from the points' write-backs. -/
theorem post11 (r : PUnit × MemSt nD τ sig (Elt Ideal)) (h : Pipeline.FramePost cfgs (dats m) 0 (V m) r) (c : Dev nD) :
    r.2.mem ((c : Thread nD τ).loc main_v11_0) = (dats m 0 c).arrAt 11 cfg0.N :=
  (h c).1 11
theorem post12 (r : PUnit × MemSt nD τ sig (Elt Ideal)) (h : Pipeline.FramePost cfgs (dats m) 0 (V m) r) (c : Dev nD) :
    r.2.mem ((c : Thread nD τ).loc main_v11_1) = (dats m 0 c).arrAt 12 cfg0.N :=
  (h c).1 12
theorem post13 (r : PUnit × MemSt nD τ sig (Elt Ideal)) (h : Pipeline.FramePost cfgs (dats m) 0 (V m) r) (c : Dev nD) :
    r.2.mem ((c : Thread nD τ).loc main_v11_2) = (dats m 0 c).arrAt 13 cfg0.N :=
  (h c).1 13

/-- After the frame run every argument array is as launched: a staged one is never written back, and no host
    operation or window touches the others. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21)
    ∧ r.2.mem ((c : Thread nD τ).loc main_arg22) = m ((c : Thread nD τ).loc main_arg22)
    ∧ r.2.mem ((c : Thread nD τ).loc main_arg23) = m ((c : Thread nD τ).loc main_arg23)
    ∧ r.2.mem ((c : Thread nD τ).loc main_arg24) = m ((c : Thread nD τ).loc main_arg24)
    ∧ r.2.mem ((c : Thread nD τ).loc main_arg25) = m ((c : Thread nD τ).loc main_arg25)
    ∧ r.2.mem ((c : Thread nD τ).loc main_arg26) = m ((c : Thread nD τ).loc main_arg26)
    ∧ r.2.mem ((c : Thread nD τ).loc main_arg27) = m ((c : Thread nD τ).loc main_arg27)
    ∧ r.2.mem ((c : Thread nD τ).loc main_arg28) = m ((c : Thread nD τ).loc main_arg28)
    ∧ r.2.mem ((c : Thread nD τ).loc main_arg29) = m ((c : Thread nD τ).loc main_arg29) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).1 1).trans (((dats m 0 c).arrAt_in 1 rfl _).trans ((A_eq m c 1).trans (V_main_arg3 m c))),
   ((h c).1 2).trans (((dats m 0 c).arrAt_in 2 rfl _).trans ((A_eq m c 2).trans (V_main_arg4 m c))),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).1 6).trans (((dats m 0 c).arrAt_in 6 rfl _).trans ((A_eq m c 6).trans (V_main_arg10 m c))),
   ((h c).2 main_arg11 (Pipeline.mem_restRefs_of main_arg11 (by decide) (by decide))).trans (V_main_arg11 m c),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   ((h c).2 main_arg14 (Pipeline.mem_restRefs_of main_arg14 (by decide) (by decide))).trans (V_main_arg14 m c),
   ((h c).2 main_arg15 (Pipeline.mem_restRefs_of main_arg15 (by decide) (by decide))).trans (V_main_arg15 m c),
   ((h c).1 7).trans (((dats m 0 c).arrAt_in 7 rfl _).trans ((A_eq m c 7).trans (V_main_arg16 m c))),
   ((h c).2 main_arg17 (Pipeline.mem_restRefs_of main_arg17 (by decide) (by decide))).trans (V_main_arg17 m c),
   ((h c).2 main_arg18 (Pipeline.mem_restRefs_of main_arg18 (by decide) (by decide))).trans (V_main_arg18 m c),
   ((h c).2 main_arg19 (Pipeline.mem_restRefs_of main_arg19 (by decide) (by decide))).trans (V_main_arg19 m c),
   ((h c).2 main_arg20 (Pipeline.mem_restRefs_of main_arg20 (by decide) (by decide))).trans (V_main_arg20 m c),
   ((h c).2 main_arg21 (Pipeline.mem_restRefs_of main_arg21 (by decide) (by decide))).trans (V_main_arg21 m c),
   ((h c).2 main_arg22 (Pipeline.mem_restRefs_of main_arg22 (by decide) (by decide))).trans (V_main_arg22 m c),
   ((h c).2 main_arg23 (Pipeline.mem_restRefs_of main_arg23 (by decide) (by decide))).trans (V_main_arg23 m c),
   ((h c).2 main_arg24 (Pipeline.mem_restRefs_of main_arg24 (by decide) (by decide))).trans (V_main_arg24 m c),
   ((h c).2 main_arg25 (Pipeline.mem_restRefs_of main_arg25 (by decide) (by decide))).trans (V_main_arg25 m c),
   ((h c).2 main_arg26 (Pipeline.mem_restRefs_of main_arg26 (by decide) (by decide))).trans (V_main_arg26 m c),
   ((h c).1 8).trans (((dats m 0 c).arrAt_in 8 rfl _).trans ((A_eq m c 8).trans (V_main_arg27 m c))),
   ((h c).1 9).trans (((dats m 0 c).arrAt_in 9 rfl _).trans ((A_eq m c 9).trans (V_main_arg28 m c))),
   ((h c).1 10).trans (((dats m 0 c).arrAt_in 10 rfl _).trans ((A_eq m c 10).trans (V_main_arg29 m c)))⟩

/-- Every weakly fair execution of the idealized kernel's program ends with the three result arrays at the
    specification's whole-array functions of the arguments, and the thirty arguments as they were. -/
theorem run : θ_run defs (onTc (τ := τ) (main (F := Ideal))) ⟨m, fun _ => 0, ρ⟩ fun r => ∀ c : Dev nD,
      r.2.mem ((c : Thread nD τ).loc main_v11_0) = readoutArr (params m c) (xArr m c) (hArr m c) (cArr m c)
      ∧ r.2.mem ((c : Thread nD τ).loc main_v11_1) = hiddenArr (params m c) (xArr m c) (hArr m c) (cArr m c)
      ∧ r.2.mem ((c : Thread nD τ).loc main_v11_2) = cellArr (params m c) (xArr m c) (hArr m c) (cArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29) :=
  (θ_run defs _ _).mono (fun r h c => ⟨(post11 m r h c).trans (final11 m c), (post12 m r h c).trans (final12 m c),
      (post13 m r h c).trans (final13 m c), kept m r h c⟩)
    (run_main m ρ)

end Cert.KernelIdeal.Val

end
-- ==== Proof.RefValue.lean ====
/-
  The reference program computes the peephole LSTM cell of the specification.

  Every stage of the reference is an array over the batch; read at row `r` and column `j` it is a term in the entries
  of row `r` of the three batch arrays and in the weights.  The file reads the stages in the order the cell is built:
  a bias vector spread over the batch, a projection of a row, the linear part of a gate, the three logistic gates and
  the candidate, the new cell state, the new hidden state, and the read-out.  The four gates are the same term in
  different weights, so the linear part and the logistic gate are read once, for arbitrary weights, and each gate is
  an instance.  The reference adds a gate's six terms in the order the specification writes them, so no law of
  addition is used: after the reading, both sides are the same expression.
-/
import Idealize.ShloMosaic.Lib.ValueIdx
import Idealize.ShloMosaic.Lib.Pipeline.Value
import Idealize.ShloMosaic.PureOps.Ideal.Laws
import Idealize.ShloMosaic.Lib.IdealHost
import proofs.«123048_j70781061038141_1_alg».proof.Proof.Gen.ReferenceIdeal.Read
import proofs.«123048_j70781061038141_1_alg».proof.Proof.Spec

noncomputable section

namespace Cert.ReferenceIdeal.RefValue

open Cert.ReferenceIdeal Cert.ReferenceIdeal.Read Cert.GateSpec
open Idealize.ShloMosaic Idealize.ShloMosaic.ValueIdx

/-- An array of extended reals of a given shape. -/
abbrev Arr (s : Shape) : Type := (⟨s, .f32⟩ : BufTy).Contents (Elt Ideal)

/-! ## The pieces every gate is made of -/

/-- The constant of the logistic function: the word `0x3F800000` is one, at every index of the batch. -/
theorem one_at (i : S1000000x32.Idx) : val_main_v18 (F := Ideal) i = (1 : EReal) := by
  rw [val_main_v18_apply, val_main_cst_apply, Ideal.ofBits_def, Ideal.ofBits_one_f32]

/-- The constant of the rectifier: the zero word is zero, at every index of the batch. -/
theorem zero_at (i : S1000000x32.Idx) : val_main_call0_v0 (F := Ideal) i = (0 : EReal) := by
  rw [val_main_call0_v0_apply, val_main_call0_cst_apply, Ideal.ofBits_def, Ideal.ofBits_zero_f32]

/-- A vector of 32 entries spread over the batch has, in row `r` and column `j`, its entry `j`. -/
theorem bias_at (b : Arr S32) (r : Fin 1000000) (j : Fin 32) :
    val_main_v2 (F := Ideal) b (ix2 r j) = b (ix1 j) := by
  rw [val_main_v2_apply, val_main_v1_apply]
  exact congrArg b (funext fun a => match a with | ⟨0, _⟩ => rfl)

/-- The input projection: entry `(r, j)` of `x · W` is the sum over the 8 features of row `r` of `x` against column `j`
    of `W`. -/
theorem dot8_at (x : Arr S1000000x8) (W : Arr S8x32) (r : Fin 1000000) (j : Fin 32) :
    val_main_v0 (F := Ideal) x W (ix2 r j) = ∑ k : Fin 8, x (ix2 r k) * W (ix2 k j) := by
  rw [val_main_v0_apply]
  refine Finset.sum_congr rfl fun k _ => ?_
  have el : lidx_main_v0 (ix2 r j) k = ix2 r k :=
    funext fun a => match a with | ⟨0, _⟩ => rfl | ⟨1, _⟩ => rfl
  have er : ridx_main_v0 (ix2 r j) k = ix2 k j :=
    funext fun a => match a with | ⟨0, _⟩ => rfl | ⟨1, _⟩ => rfl
  rw [el, er]

/-- The recurrent projection: entry `(r, j)` of `h · W` is the sum over the 32 hidden units of row `r` of `h` against
    column `j` of `W`. -/
theorem dot32_at (h : Arr S1000000x32) (W : Arr S32x32) (r : Fin 1000000) (j : Fin 32) :
    val_main_v4 (F := Ideal) h W (ix2 r j) = ∑ k : Fin 32, h (ix2 r k) * W (ix2 k j) := by
  rw [val_main_v4_apply]
  refine Finset.sum_congr rfl fun k _ => ?_
  have el : lidx_main_v4 (ix2 r j) k = ix2 r k :=
    funext fun a => match a with | ⟨0, _⟩ => rfl | ⟨1, _⟩ => rfl
  have er : ridx_main_v4 (ix2 r j) k = ix2 k j :=
    funext fun a => match a with | ⟨0, _⟩ => rfl | ⟨1, _⟩ => rfl
  rw [el, er]

/-- A gate's linear part, for arbitrary weights: input projection, its bias, recurrent projection, its bias, added in
    this order.  (The gate bias `b` does not enter; it is there to name the gate.) -/
theorem lin_at (x : Arr S1000000x8) (h : Arr S1000000x32) (Wx : Arr S8x32) (bx : Arr S32) (Wh : Arr S32x32)
    (bh b : Arr S32) (r : Fin 1000000) (j : Fin 32) :
    val_main_v8 (F := Ideal) x h Wx bx Wh bh (ix2 r j) = lin ⟨Wx, bx, Wh, bh, b⟩ (rowOf x r) (rowOf h r) j := by
  rw [val_main_v8_apply, val_main_v5_apply, val_main_v3_apply, dot8_at, bias_at, dot32_at,
    show val_main_v7 (F := Ideal) bh = val_main_v2 (F := Ideal) bh from rfl, bias_at]
  rfl

/-- A logistic gate with a peephole, for arbitrary weights and an arbitrary array `c` seen through the peephole:
    one over one plus the exponential of minus the argument is the logistic function of the argument, and the argument
    is the linear part, then the peephole term, then the gate bias. -/
theorem gate_at (x : Arr S1000000x8) (h : Arr S1000000x32) (Wx : Arr S8x32) (bx : Arr S32) (Wh : Arr S32x32)
    (c : Arr S1000000x32) (bh b w : Arr S32) (r : Fin 1000000) (j : Fin 32) :
    val_main_v21 (F := Ideal) x h c Wx bx Wh bh b w (ix2 r j)
      = Ideal.logistic (lin ⟨Wx, bx, Wh, bh, b⟩ (rowOf x r) (rowOf h r) j + w (ix1 j) * c (ix2 r j) + b (ix1 j)) := by
  rw [val_main_v21_apply, val_main_v19_apply, val_main_v17_apply, val_main_v16_apply, val_main_v15_apply,
    val_main_v12_apply, val_main_v11_apply,
    show val_main_v20 (F := Ideal) = val_main_v18 (F := Ideal) from rfl, one_at,
    lin_at x h Wx bx Wh bh b,
    show val_main_v10 (F := Ideal) w = val_main_v2 (F := Ideal) w from rfl, bias_at,
    show val_main_v14 (F := Ideal) b = val_main_v2 (F := Ideal) b from rfl, bias_at]
  rfl

/-- The candidate, for arbitrary weights: the hyperbolic tangent of the linear part plus the gate bias. -/
theorem tanh_gate_at (x : Arr S1000000x8) (h : Arr S1000000x32) (Wx : Arr S8x32) (bx : Arr S32) (Wh : Arr S32x32)
    (bh b : Arr S32) (r : Fin 1000000) (j : Fin 32) :
    val_main_v56 (F := Ideal) x h Wx bx Wh bh b (ix2 r j)
      = Ideal.tanh (lin ⟨Wx, bx, Wh, bh, b⟩ (rowOf x r) (rowOf h r) j + b (ix1 j)) := by
  rw [val_main_v56_apply, val_main_v55_apply,
    show val_main_v52 (F := Ideal) x h Wx bx Wh bh = val_main_v8 (F := Ideal) x h Wx bx Wh bh from rfl,
    lin_at x h Wx bx Wh bh b,
    show val_main_v54 (F := Ideal) b = val_main_v2 (F := Ideal) b from rfl, bias_at]
  rfl

/-! ## The gates and the three results in one row -/

variable (x0 : (⟨S1000000x8, .f32⟩ : BufTy).Contents (Elt Ideal)) (x3 x4 : (⟨S1000000x32, .f32⟩ : BufTy).Contents (Elt Ideal)) (x5 : (⟨S8x32, .f32⟩ : BufTy).Contents (Elt Ideal)) (x6 : (⟨S32, .f32⟩ : BufTy).Contents (Elt Ideal)) (x7 : (⟨S32x32, .f32⟩ : BufTy).Contents (Elt Ideal)) (x8 x9 x10 : (⟨S32, .f32⟩ : BufTy).Contents (Elt Ideal)) (x11 : (⟨S8x32, .f32⟩ : BufTy).Contents (Elt Ideal)) (x12 : (⟨S32, .f32⟩ : BufTy).Contents (Elt Ideal)) (x13 : (⟨S32x32, .f32⟩ : BufTy).Contents (Elt Ideal)) (x14 x15 x16 : (⟨S32, .f32⟩ : BufTy).Contents (Elt Ideal)) (x17 : (⟨S8x32, .f32⟩ : BufTy).Contents (Elt Ideal)) (x18 : (⟨S32, .f32⟩ : BufTy).Contents (Elt Ideal)) (x19 : (⟨S32x32, .f32⟩ : BufTy).Contents (Elt Ideal)) (x20 x21 : (⟨S32, .f32⟩ : BufTy).Contents (Elt Ideal)) (x22 : (⟨S8x32, .f32⟩ : BufTy).Contents (Elt Ideal)) (x23 : (⟨S32, .f32⟩ : BufTy).Contents (Elt Ideal)) (x24 : (⟨S32x32, .f32⟩ : BufTy).Contents (Elt Ideal)) (x25 x26 x27 : (⟨S32, .f32⟩ : BufTy).Contents (Elt Ideal)) (x28 : (⟨S32x9, .f32⟩ : BufTy).Contents (Elt Ideal)) (x29 : (⟨S9, .f32⟩ : BufTy).Contents (Elt Ideal))

/-- The input gate in row `r` at hidden unit `j`. -/
theorem in_at (r : Fin 1000000) (j : Fin 32) :
    val_main_v21 (F := Ideal) x0 x3 x4 x5 x6 x7 x8 x9 x10 (ix2 r j)
      = inGate (mkParams x5 x6 x7 x8 x9 x10 x11 x12 x13 x14 x15 x16 x17 x18 x19 x20 x21 x22 x23 x24 x25 x26 x27 x28 x29) (rowOf x0 r) (rowOf x3 r) (rowOf x4 r) j :=
  gate_at x0 x3 x5 x6 x7 x4 x8 x9 x10 r j

/-- The forget gate in row `r` at hidden unit `j`: the input gate's term in the forget gate's weights. -/
theorem forget_at (r : Fin 1000000) (j : Fin 32) :
    val_main_v43 (F := Ideal) x0 x3 x4 x11 x12 x13 x14 x15 x16 (ix2 r j)
      = forgetGate (mkParams x5 x6 x7 x8 x9 x10 x11 x12 x13 x14 x15 x16 x17 x18 x19 x20 x21 x22 x23 x24 x25 x26 x27 x28 x29) (rowOf x0 r) (rowOf x3 r) (rowOf x4 r) j :=
  gate_at x0 x3 x11 x12 x13 x4 x14 x15 x16 r j

/-- The candidate in row `r` at hidden unit `j`. -/
theorem cand_at (r : Fin 1000000) (j : Fin 32) :
    val_main_v56 (F := Ideal) x0 x3 x17 x18 x19 x20 x21 (ix2 r j)
      = candidate (mkParams x5 x6 x7 x8 x9 x10 x11 x12 x13 x14 x15 x16 x17 x18 x19 x20 x21 x22 x23 x24 x25 x26 x27 x28 x29) (rowOf x0 r) (rowOf x3 r) j :=
  tanh_gate_at x0 x3 x17 x18 x19 x20 x21 r j

/-- The new cell state in row `r` at hidden unit `j`: forget gate times old cell state plus input gate times candidate. -/
theorem cell_at (r : Fin 1000000) (j : Fin 32) :
    val_main_v59 (F := Ideal) x0 x3 x4 x5 x6 x7 x8 x9 x10 x11 x12 x13 x14 x15 x16 x17 x18 x19 x20 x21 (ix2 r j)
      = cellRow (mkParams x5 x6 x7 x8 x9 x10 x11 x12 x13 x14 x15 x16 x17 x18 x19 x20 x21 x22 x23 x24 x25 x26 x27 x28 x29) (rowOf x0 r) (rowOf x3 r) (rowOf x4 r) j := by
  rw [val_main_v59_apply, val_main_v57_apply, val_main_v58_apply,
    forget_at x0 x3 x4 x5 x6 x7 x8 x9 x10 x11 x12 x13 x14 x15 x16 x17 x18 x19 x20 x21 x22 x23 x24 x25 x26 x27 x28 x29 r j, in_at x0 x3 x4 x5 x6 x7 x8 x9 x10 x11 x12 x13 x14 x15 x16 x17 x18 x19 x20 x21 x22 x23 x24 x25 x26 x27 x28 x29 r j, cand_at x0 x3 x5 x6 x7 x8 x9 x10 x11 x12 x13 x14 x15 x16 x17 x18 x19 x20 x21 x22 x23 x24 x25 x26 x27 x28 x29 r j]
  rfl

/-- The output gate in row `r` at hidden unit `j`: the input gate's term in the output gate's weights, with the new cell
    state seen through the peephole. -/
theorem out_at (r : Fin 1000000) (j : Fin 32) :
    val_main_v81 (F := Ideal) x0 x3 x4 x5 x6 x7 x8 x9 x10 x11 x12 x13 x14 x15 x16 x17 x18 x19 x20 x21 x22 x23 x24 x25 x26 x27 (ix2 r j)
      = outGate (mkParams x5 x6 x7 x8 x9 x10 x11 x12 x13 x14 x15 x16 x17 x18 x19 x20 x21 x22 x23 x24 x25 x26 x27 x28 x29) (rowOf x0 r) (rowOf x3 r) (rowOf x4 r) j := by
  rw [show val_main_v81 (F := Ideal) x0 x3 x4 x5 x6 x7 x8 x9 x10 x11 x12 x13 x14 x15 x16 x17 x18 x19 x20 x21 x22 x23 x24 x25 x26 x27
        = val_main_v21 (F := Ideal) x0 x3 (val_main_v59 (F := Ideal) x0 x3 x4 x5 x6 x7 x8 x9 x10 x11 x12 x13 x14 x15 x16 x17 x18 x19 x20 x21) x22 x23 x24 x25 x26 x27 from rfl,
    gate_at, cell_at x0 x3 x4 x5 x6 x7 x8 x9 x10 x11 x12 x13 x14 x15 x16 x17 x18 x19 x20 x21 x22 x23 x24 x25 x26 x27 x28 x29 r j]
  rfl

/-- The new hidden state in row `r` at hidden unit `j`: output gate times the hyperbolic tangent of the new cell state. -/
theorem hidden_at (r : Fin 1000000) (j : Fin 32) :
    val_main_v83 (F := Ideal) x0 x3 x4 x5 x6 x7 x8 x9 x10 x11 x12 x13 x14 x15 x16 x17 x18 x19 x20 x21 x22 x23 x24 x25 x26 x27 (ix2 r j)
      = hiddenRow (mkParams x5 x6 x7 x8 x9 x10 x11 x12 x13 x14 x15 x16 x17 x18 x19 x20 x21 x22 x23 x24 x25 x26 x27 x28 x29) (rowOf x0 r) (rowOf x3 r) (rowOf x4 r) j := by
  rw [val_main_v83_apply, val_main_v82_apply, out_at x0 x3 x4 x5 x6 x7 x8 x9 x10 x11 x12 x13 x14 x15 x16 x17 x18 x19 x20 x21 x22 x23 x24 x25 x26 x27 x28 x29 r j, cell_at x0 x3 x4 x5 x6 x7 x8 x9 x10 x11 x12 x13 x14 x15 x16 x17 x18 x19 x20 x21 x22 x23 x24 x25 x26 x27 x28 x29 r j]
  rfl

/-- The read-out in row `r` at output `n`: the rectified new hidden state of the row against column `n` of the read-out
    matrix, plus entry `n` of the read-out bias. -/
theorem readout_at (r : Fin 1000000) (n : Fin 9) :
    val_main_v88 (F := Ideal) x0 x3 x4 x5 x6 x7 x8 x9 x10 x11 x12 x13 x14 x15 x16 x17 x18 x19 x20 x21 x22 x23 x24 x25 x26 x27 x28 x29 (ix2 r n)
      = readoutRow (mkParams x5 x6 x7 x8 x9 x10 x11 x12 x13 x14 x15 x16 x17 x18 x19 x20 x21 x22 x23 x24 x25 x26 x27 x28 x29) (rowOf x0 r) (rowOf x3 r) (rowOf x4 r) n := by
  have eb : idx_main_v86 (idx_main_v87 (ix2 r n)) = ix1 n := funext fun a => match a with | ⟨0, _⟩ => rfl
  have es : ∀ k : Fin 32,
      val_main_v84 (F := Ideal) x0 x3 x4 x5 x6 x7 x8 x9 x10 x11 x12 x13 x14 x15 x16 x17 x18 x19 x20 x21 x22 x23 x24 x25 x26 x27 (lidx_main_v85 (ix2 r n) k) * x28 (ridx_main_v85 (ix2 r n) k)
        = max (hiddenRow (mkParams x5 x6 x7 x8 x9 x10 x11 x12 x13 x14 x15 x16 x17 x18 x19 x20 x21 x22 x23 x24 x25 x26 x27 x28 x29) (rowOf x0 r) (rowOf x3 r) (rowOf x4 r) k) 0 * x28 (ix2 k n) := by
    intro k
    have el : lidx_main_v85 (ix2 r n) k = ix2 r k :=
      funext fun a => match a with | ⟨0, _⟩ => rfl | ⟨1, _⟩ => rfl
    have er : ridx_main_v85 (ix2 r n) k = ix2 k n :=
      funext fun a => match a with | ⟨0, _⟩ => rfl | ⟨1, _⟩ => rfl
    rw [el, er, val_main_v84_apply, hidden_at x0 x3 x4 x5 x6 x7 x8 x9 x10 x11 x12 x13 x14 x15 x16 x17 x18 x19 x20 x21 x22 x23 x24 x25 x26 x27 x28 x29 r k, zero_at]
    rfl
  rw [val_main_v88_apply, val_main_v85_apply, val_main_v87_apply, val_main_v86_apply, eb, Finset.sum_congr rfl fun k _ => es k]
  rfl

/-! ## The three results as whole arrays -/

/-- The first result of the reference, the new cell state, is the specification's cell array. -/
theorem cell_eq :
    val_main_v59 (F := Ideal) x0 x3 x4 x5 x6 x7 x8 x9 x10 x11 x12 x13 x14 x15 x16 x17 x18 x19 x20 x21
      = cellArr (mkParams x5 x6 x7 x8 x9 x10 x11 x12 x13 x14 x15 x16 x17 x18 x19 x20 x21 x22 x23 x24 x25 x26 x27 x28 x29) x0 x3 x4 := by
  funext i
  obtain ⟨r, j, rfl⟩ : ∃ (r : Fin 1000000) (j : Fin 32), i = ix2 r j := ⟨i 0, i 1, eq_ix2 i⟩
  exact cell_at x0 x3 x4 x5 x6 x7 x8 x9 x10 x11 x12 x13 x14 x15 x16 x17 x18 x19 x20 x21 x22 x23 x24 x25 x26 x27 x28 x29 r j

/-- The second result of the reference, the new hidden state, is the specification's hidden array. -/
theorem hidden_eq :
    val_main_v83 (F := Ideal) x0 x3 x4 x5 x6 x7 x8 x9 x10 x11 x12 x13 x14 x15 x16 x17 x18 x19 x20 x21 x22 x23 x24 x25 x26 x27
      = hiddenArr (mkParams x5 x6 x7 x8 x9 x10 x11 x12 x13 x14 x15 x16 x17 x18 x19 x20 x21 x22 x23 x24 x25 x26 x27 x28 x29) x0 x3 x4 := by
  funext i
  obtain ⟨r, j, rfl⟩ : ∃ (r : Fin 1000000) (j : Fin 32), i = ix2 r j := ⟨i 0, i 1, eq_ix2 i⟩
  exact hidden_at x0 x3 x4 x5 x6 x7 x8 x9 x10 x11 x12 x13 x14 x15 x16 x17 x18 x19 x20 x21 x22 x23 x24 x25 x26 x27 x28 x29 r j

/-- The third result of the reference, the read-out, is the specification's read-out array. -/
theorem readout_eq :
    val_main_v88 (F := Ideal) x0 x3 x4 x5 x6 x7 x8 x9 x10 x11 x12 x13 x14 x15 x16 x17 x18 x19 x20 x21 x22 x23 x24 x25 x26 x27 x28 x29
      = readoutArr (mkParams x5 x6 x7 x8 x9 x10 x11 x12 x13 x14 x15 x16 x17 x18 x19 x20 x21 x22 x23 x24 x25 x26 x27 x28 x29) x0 x3 x4 := by
  funext i
  obtain ⟨r, n, rfl⟩ : ∃ (r : Fin 1000000) (n : Fin 9), i = ix2 r n := ⟨i 0, i 1, eq_ix2 i⟩
  exact readout_at x0 x3 x4 x5 x6 x7 x8 x9 x10 x11 x12 x13 x14 x15 x16 x17 x18 x19 x20 x21 x22 x23 x24 x25 x26 x27 x28 x29 r n

end Cert.ReferenceIdeal.RefValue

end
-- ==== Proof.lean ====
/-
  A peephole LSTM cell over a batch of 1 000 000 rows, computed by one tiled kernel, equals its plain reference on the
  extended reals.

  Both programs take the batch arrays x (8 features), h and c (32 hidden units), and per gate (input, forget,
  candidate, output) an input projection, a recurrent projection and three bias vectors, peephole vectors for three of
  the gates, and a read-out matrix and bias.  Row by row they compute
      i = logistic (x Wxi + bxi + h Whi + bhi + wci * c + bi)      f likewise with wcf
      t = tanh (x Wxc + bxc + h Whc + bhc + bc)                    c' = f * c + i * t
      o = logistic (x Wxo + bxo + h Who + bho + wco * c' + bo)     h' = o * tanh c'
      y = max (h', 0) Wl + bl .
  The reference does exactly this on the whole arrays, spelling the logistic function as 1 / (1 + exp (-z)).  The kernel
  first lays the four gates' projections side by side and adds each gate's three biases into one vector, then, per
  block of 2000 rows, does two products against the side-by-side arrays, adds the summed biases, cuts the four gates'
  32 columns apart, and applies the gates; its logistic is one operation.  On the extended reals a change of float
  format is the identity, the logistic operation IS 1 / (1 + exp (-z)), a product against side-by-side matrices read at
  column 32 g + j is the product against gate g's matrix at column j, and the two orders in which the six terms of a
  gate's argument are added agree because addition is commutative and associative there (also at the infinities): no
  finiteness of the inputs is used for the values.

  The three frames: each kernel program runs to the end, faults nowhere and leaves its arguments unchanged (the frame
  of one pallas_call over 500 grid points after eleven host operations, proved once for any float instance); the
  reference's frame is its run with the results dropped.  The idealization rewrote nothing, so `preserves` is trivial.
-/
import proofs.«123048_j70781061038141_1_alg».proof.Defs
import proofs.«123048_j70781061038141_1_alg».proof.Proof.Gen.Kernel
import proofs.«123048_j70781061038141_1_alg».proof.Proof.Gen.Kernel.Skeleton
import proofs.«123048_j70781061038141_1_alg».proof.Proof.Gen.Kernel.Launch
import proofs.«123048_j70781061038141_1_alg».proof.Proof.Gen.Kernel.Points
import proofs.«123048_j70781061038141_1_alg».proof.Proof.Gen.KernelIdeal
import proofs.«123048_j70781061038141_1_alg».proof.Proof.Gen.KernelIdeal.Skeleton
import proofs.«123048_j70781061038141_1_alg».proof.Proof.Gen.KernelIdeal.Launch
import proofs.«123048_j70781061038141_1_alg».proof.Proof.Gen.KernelIdeal.Points
import proofs.«123048_j70781061038141_1_alg».proof.Proof.Gen.ReferenceIdeal
import proofs.«123048_j70781061038141_1_alg».proof.Proof.Gen.Pre_finite_inputs
import proofs.«123048_j70781061038141_1_alg».proof.Proof.Gen.ReferenceIdeal.Run
import proofs.«123048_j70781061038141_1_alg».proof.Proof.Gen.ReferenceIdeal.Read
import proofs.«123048_j70781061038141_1_alg».proof.Proof.FrameBits
import proofs.«123048_j70781061038141_1_alg».proof.Proof.FrameIdeal
import proofs.«123048_j70781061038141_1_alg».proof.Proof.KernelValue
import proofs.«123048_j70781061038141_1_alg».proof.Proof.RefValue
import Idealize.ShloMosaic.Adequacy
import Idealize.ShloMosaic.Init

noncomputable section

namespace Cert.Proof

open Idealize.ShloMosaic Idealize.ShloMosaic.TcCoe Idealize.SL.Sem Cert.GateSpec

/-- The kernel as printed runs, faults nowhere, and leaves its thirty arguments unchanged. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- The parameter bundle respects equality of the 25 weight arrays. -/
theorem mkParams_congr
    {b5 d5 : Mat 8 32} {b6 d6 : Row 32} {b7 d7 : Mat 32 32} {b8 d8 b9 d9 b10 d10 : Row 32}
    {b11 d11 : Mat 8 32} {b12 d12 : Row 32} {b13 d13 : Mat 32 32} {b14 d14 b15 d15 b16 d16 : Row 32}
    {b17 d17 : Mat 8 32} {b18 d18 : Row 32} {b19 d19 : Mat 32 32} {b20 d20 b21 d21 : Row 32}
    {b22 d22 : Mat 8 32} {b23 d23 : Row 32} {b24 d24 : Mat 32 32} {b25 d25 b26 d26 b27 d27 : Row 32}
    {b28 d28 : Mat 32 9} {b29 d29 : Row 9}
    (e5 : b5 = d5) (e6 : b6 = d6) (e7 : b7 = d7) (e8 : b8 = d8) (e9 : b9 = d9) (e10 : b10 = d10)
    (e11 : b11 = d11) (e12 : b12 = d12) (e13 : b13 = d13) (e14 : b14 = d14) (e15 : b15 = d15) (e16 : b16 = d16)
    (e17 : b17 = d17) (e18 : b18 = d18) (e19 : b19 = d19) (e20 : b20 = d20) (e21 : b21 = d21)
    (e22 : b22 = d22) (e23 : b23 = d23) (e24 : b24 = d24) (e25 : b25 = d25) (e26 : b26 = d26) (e27 : b27 = d27)
    (e28 : b28 = d28) (e29 : b29 = d29) :
    mkParams b5 b6 b7 b8 b9 b10 b11 b12 b13 b14 b15 b16 b17 b18 b19 b20 b21 b22 b23 b24 b25 b26 b27 b28 b29
      = mkParams d5 d6 d7 d8 d9 d10 d11 d12 d13 d14 d15 d16 d17 d18 d19 d20 d21 d22 d23 d24 d25 d26 d27 d28 d29 := by
  subst e5 e6 e7 e8 e9 e10 e11 e12 e13 e14 e15 e16 e17 e18 e19 e20 e21 e22 e23 e24 e25 e26 e27 e28 e29
  rfl

/-- The three whole-array functions respect equality of the parameters and of the batch arrays. -/
theorem readoutArr_congr {P Q : Params} {x x' : Mat 1000000 8} {h h' c c' : Mat 1000000 32}
    (eP : P = Q) (ex : x = x') (eh : h = h') (ec : c = c') : readoutArr P x h c = readoutArr Q x' h' c' := by
  subst eP ex eh ec; rfl
theorem hiddenArr_congr {P Q : Params} {x x' : Mat 1000000 8} {h h' c c' : Mat 1000000 32}
    (eP : P = Q) (ex : x = x') (eh : h = h') (ec : c = c') : hiddenArr P x h c = hiddenArr Q x' h' c' := by
  subst eP ex eh ec; rfl
theorem cellArr_congr {P Q : Params} {x x' : Mat 1000000 8} {h h' c c' : Mat 1000000 32}
    (eP : P = Q) (ex : x = x') (eh : h = h') (ec : c = c') : cellArr P x h c = cellArr Q x' h' c' := by
  subst eP ex eh ec; rfl

/-- From memories that agree on the arguments both programs end with the specification's read-out, hidden state
    and cell state of those arguments: the kernel's result arrays by its value leg, the reference's by its run read
    operation by operation. -/
theorem algebraic : Cert.algebraic_KernelIdeal_ReferenceIdeal := by
  intro m ρ m' ρ' _ hagree
  refine ⟨fun c => readoutArr (Cert.KernelIdeal.Val.params m c) (Cert.KernelIdeal.Val.xArr m c) (Cert.KernelIdeal.Val.hArr m c) (Cert.KernelIdeal.Val.cArr m c),
    fun c => hiddenArr (Cert.KernelIdeal.Val.params m c) (Cert.KernelIdeal.Val.xArr m c) (Cert.KernelIdeal.Val.hArr m c) (Cert.KernelIdeal.Val.cArr m c),
    fun c => cellArr (Cert.KernelIdeal.Val.params m c) (Cert.KernelIdeal.Val.xArr m c) (Cert.KernelIdeal.Val.hArr m c) (Cert.KernelIdeal.Val.cArr m c),
    Cert.KernelIdeal.Val.run m ρ, ?_⟩
  refine (θ_run Cert.ReferenceIdeal.defs _ _).mono (fun _ h c => ?_) (Cert.ReferenceIdeal.Value.run (F := Ideal) m' ρ')
  obtain ⟨h88, h83, h59, hk⟩ := h c
  obtain ⟨a0, a1, a2, a3, a4, a5, a6, a7, a8, a9, a10, a11, a12, a13, a14, a15, a16, a17, a18, a19, a20, a21, a22, a23, a24, a25, a26, a27, a28, a29⟩ := hagree c
  have eP : mkParams (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29))
      = Cert.KernelIdeal.Val.params m c :=
    mkParams_congr a5 a6 a7 a8 a9 a10 a11 a12 a13 a14 a15 a16 a17 a18 a19 a20 a21 a22 a23 a24 a25 a26 a27 a28 a29
  refine ⟨?_, ?_, ?_, hk⟩
  · exact h88.trans ((Cert.ReferenceIdeal.Read.val_main_v88_eq m' c).trans
      ((Cert.ReferenceIdeal.RefValue.readout_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29))).trans
        (readoutArr_congr eP a0 a3 a4)))
  · exact h83.trans ((Cert.ReferenceIdeal.Read.val_main_v83_eq m' c).trans
      ((Cert.ReferenceIdeal.RefValue.hidden_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29))).trans
        (hiddenArr_congr eP a0 a3 a4)))
  · exact h59.trans ((Cert.ReferenceIdeal.Read.val_main_v59_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))).trans
      ((Cert.ReferenceIdeal.RefValue.cell_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29))).trans
        (cellArr_congr eP a0 a3 a4)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
